-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x64 : Shape := ⟨3, ![4096, 8, 64]⟩
abbrev S4096x8 : Shape := ⟨2, ![4096, 8]⟩
abbrev S4096x4 : Shape := ⟨2, ![4096, 4]⟩
abbrev S4096x64 : Shape := ⟨2, ![4096, 64]⟩
abbrev S4096 : Shape := ⟨1, ![4096]⟩
abbrev S105x256 : Shape := ⟨2, ![105, 256]⟩
abbrev S28x256 : Shape := ⟨2, ![28, 256]⟩
abbrev S64x256 : Shape := ⟨2, ![64, 256]⟩
abbrev S8x256 : Shape := ⟨2, ![8, 256]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S4096x64 : S_.BroadcastsInDim S4096x64 (![] : Fin 0 → Fin S4096x64.rank)
  reducesTo_S4096x64_S_d0_1 : S4096x64.ReducesTo [0, 1] S_
  bcast_S_S105x256 : S_.BroadcastsInDim S105x256 (![] : Fin 0 → Fin S105x256.rank)
  reducesTo_S105x256_S_d0_1 : S105x256.ReducesTo [0, 1] S_
  bcast_S_S28x256 : S_.BroadcastsInDim S28x256 (![] : Fin 0 → Fin S28x256.rank)
  reducesTo_S28x256_S_d0_1 : S28x256.ReducesTo [0, 1] S_
  bcast_S_S64x256 : S_.BroadcastsInDim S64x256 (![] : Fin 0 → Fin S64x256.rank)
  reducesTo_S64x256_S_d0_1 : S64x256.ReducesTo [0, 1] S_
  bcast_S_S8x256 : S_.BroadcastsInDim S8x256 (![] : Fin 0 → Fin S8x256.rank)
  reducesTo_S8x256_S_d0_1 : S8x256.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg6 : IVec S4096 32) (main_v48 : IVec S_ 1) (main_v49 : FVec F S8x256 .f32) (main_v50 : FVec F S8x256 .f32) : IVec S_ 1 :=
  let main_v51 : IVec S8x256 1 := cmpf .olt main_v49 main_v50
  let main_c_19 : IVec S_ 1 := constantI S_ 1 1#1
  let main_v52 : IVec S_ 1 := (fun x v => Host.reduce IntOp.andi x v reducesTo_S8x256_S_d0_1 h_S_) main_v51 main_c_19
  let main_v53 : IVec S_ 1 := andi main_v48 main_v52
  let main_c_20 : IVec S_ 32 := constantI S_ 32 0#32
  let main_v54 : IVec S4096 32 := broadcastInDim S4096 ![] bcast_S_S4096 main_c_20
  let main_v55 : IVec S4096 1 := cmpi .sge main_arg6 main_v54
  let main_c_21 : IVec S_ 32 := constantI S_ 32 8#32
  let main_v56 : IVec S4096 32 := broadcastInDim S4096 ![] bcast_S_S4096 main_c_21
  let main_v57 : IVec S4096 1 := cmpi .slt main_arg6 main_v56
  let main_v58 : IVec S4096 1 := andi main_v55 main_v57
  let main_c_22 : IVec S_ 1 := constantI S_ 1 1#1
  let main_v59 : IVec S_ 1 := (fun x v => Host.reduce IntOp.andi x v reducesTo_S4096_S_d0 h_S_) main_v58 main_c_22
  let main_v60 : IVec S_ 1 := andi main_v53 main_v59
  main_v60

def fn_part2 {F : FTy → Type} [FloatOps F] (main_arg6 : IVec S4096 32) (main_arg9 : FVec F S64x256 .f32) (main_arg10 : FVec F S64x256 .f32) (main_arg11 : FVec F S64x256 .f32) (main_arg12 : FVec F S8x256 .f32) (main_v33 : IVec S_ 1) : IVec S_ 1 :=
  let main_v34 : FVec F S64x256 .f32 := Host.absf main_arg9
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64x256 .f32 := Host.absf main_arg10
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64x256 .f32 := Host.absf main_arg11
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S8x256 .f32 := Host.absf main_arg12
  let main_cst_18 : FVec F S_ .f32 := constant S_ .f32 0x7F800000#32
  let main_v50 : FVec F S8x256 .f32 := broadcastInDim S8x256 ![] bcast_S_S8x256 main_cst_18
  fn_part3 (F := F) main_arg6 main_v48 main_v49 main_v50

def fn_part1 {F : FTy → Type} [FloatOps F] (main_arg5 : FVec F S4096x8 .f32) (main_arg6 : IVec S4096 32) (main_arg7 : FVec F S105x256 .f32) (main_arg8 : FVec F S28x256 .f32) (main_arg9 : FVec F S64x256 .f32) (main_arg10 : FVec F S64x256 .f32) (main_arg11 : FVec F S64x256 .f32) (main_arg12 : FVec F S8x256 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S105x256 .f32 := Host.absf main_arg7
  let main_cst_8 : FVec F S_ .f32 := constant S_ .f32 0x7F800000#32
  let main_v25 : FVec F S105x256 .f32 := broadcastInDim S105x256 ![] bcast_S_S105x256 main_cst_8
  let main_v26 : IVec S105x256 1 := cmpf .olt main_v24 main_v25
  let main_c_9 : IVec S_ 1 := constantI S_ 1 1#1
  let main_v27 : IVec S_ 1 := (fun x v => Host.reduce IntOp.andi x v reducesTo_S105x256_S_d0_1 h_S_) main_v26 main_c_9
  let main_v28 : IVec S_ 1 := andi main_v23 main_v27
  let main_v29 : FVec F S28x256 .f32 := Host.absf main_arg8
  let main_cst_10 : FVec F S_ .f32 := constant S_ .f32 0x7F800000#32
  let main_v30 : FVec F S28x256 .f32 := broadcastInDim S28x256 ![] bcast_S_S28x256 main_cst_10
  let main_v31 : IVec S28x256 1 := cmpf .olt main_v29 main_v30
  let main_c_11 : IVec S_ 1 := constantI S_ 1 1#1
  let main_v32 : IVec S_ 1 := (fun x v => Host.reduce IntOp.andi x v reducesTo_S28x256_S_d0_1 h_S_) main_v31 main_c_11
  let main_v33 : IVec S_ 1 := andi main_v28 main_v32
  fn_part2 (F := F) main_arg6 main_arg9 main_arg10 main_arg11 main_arg12 main_v33

def fn {F : FTy → Type} [FloatOps F] (main_arg0 : IVec S4096x8x64 32) (main_arg1 : FVec F S4096x8 .f32) (main_arg2 : FVec F S4096x8 .f32) (main_arg3 : FVec F S4096x4 .f32) (main_arg4 : FVec F S4096x64 .f32) (main_arg5 : FVec F S4096x8 .f32) (main_arg6 : IVec S4096 32) (main_arg7 : FVec F S105x256 .f32) (main_arg8 : FVec F S28x256 .f32) (main_arg9 : FVec F S64x256 .f32) (main_arg10 : FVec F S64x256 .f32) (main_arg11 : FVec F S64x256 .f32) (main_arg12 : FVec F S8x256 .f32) : IVec S_ 1 :=
  let main_v0 : FVec F S4096x8 .f32 := Host.absf main_arg1
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x4 .f32 := Host.absf main_arg3
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg5 main_arg6 main_arg7 main_arg8 main_arg9 main_arg10 main_arg11 main_arg12 main_v13 main_v16
-- ==== Kernel.lean ====
abbrev S4096x8x64 : Shape := ⟨3, ![4096, 8, 64]⟩
abbrev S4096x8 : Shape := ⟨2, ![4096, 8]⟩
abbrev S4096x4 : Shape := ⟨2, ![4096, 4]⟩
abbrev S4096x64 : Shape := ⟨2, ![4096, 64]⟩
abbrev S4096 : Shape := ⟨1, ![4096]⟩
abbrev S105x256 : Shape := ⟨2, ![105, 256]⟩
abbrev S28x256 : Shape := ⟨2, ![28, 256]⟩
abbrev S64x256 : Shape := ⟨2, ![64, 256]⟩
abbrev S8x256 : Shape := ⟨2, ![8, 256]⟩
abbrev S4096x1 : Shape := ⟨2, ![4096, 1]⟩
abbrev S4096x64x256 : Shape := ⟨3, ![4096, 64, 256]⟩
abbrev S64x8x64 : Shape := ⟨3, ![64, 8, 64]⟩
abbrev S64x8 : Shape := ⟨2, ![64, 8]⟩
abbrev S64x4 : Shape := ⟨2, ![64, 4]⟩
abbrev S64x64 : Shape := ⟨2, ![64, 64]⟩
abbrev S64x1 : Shape := ⟨2, ![64, 1]⟩
abbrev S64x64x256 : Shape := ⟨3, ![64, 64, 256]⟩
abbrev S1x256 : Shape := ⟨2, ![1, 256]⟩
abbrev S256 : Shape := ⟨1, ![256]⟩
abbrev S1x1x13 : Shape := ⟨3, ![1, 1, 13]⟩
abbrev S4096x256 : Shape := ⟨2, ![4096, 256]⟩
abbrev S64x1x64 : Shape := ⟨3, ![64, 1, 64]⟩
abbrev S64x64x1 : Shape := ⟨3, ![64, 64, 1]⟩
abbrev S64x64x13 : Shape := ⟨3, ![64, 64, 13]⟩
abbrev S4096x13 : Shape := ⟨2, ![4096, 13]⟩
abbrev S13x256 : Shape := ⟨2, ![13, 256]⟩
abbrev S1x1x256 : Shape := ⟨3, ![1, 1, 256]⟩
abbrev S64x28 : Shape := ⟨2, ![64, 28]⟩
abbrev S64x1x256 : Shape := ⟨3, ![64, 1, 256]⟩
abbrev S1x64x256 : Shape := ⟨3, ![1, 64, 256]⟩
abbrev S1x8 : Shape := ⟨2, ![1, 8]⟩

abbrev nBuf : Space → Nat
  | .hbm => 15
  | .vmem => 22
  | .smem => 0
  | _ => 0

abbrev bufTy : (tb : Table) → Fin (tcTables nBuf tb) → BufTy
  | .hbm, ⟨0, _⟩ => ⟨S4096x8x64, .i32⟩
  | .hbm, ⟨1, _⟩ => ⟨S4096x8, .f32⟩
  | .hbm, ⟨2, _⟩ => ⟨S4096x8, .f32⟩
  | .hbm, ⟨3, _⟩ => ⟨S4096x4, .f32⟩
  | .hbm, ⟨4, _⟩ => ⟨S4096x64, .f32⟩
  | .hbm, ⟨5, _⟩ => ⟨S4096x8, .f32⟩
  | .hbm, ⟨6, _⟩ => ⟨S4096, .i32⟩
  | .hbm, ⟨7, _⟩ => ⟨S105x256, .f32⟩
  | .hbm, ⟨8, _⟩ => ⟨S28x256, .f32⟩
  | .hbm, ⟨9, _⟩ => ⟨S64x256, .f32⟩
  | .hbm, ⟨10, _⟩ => ⟨S64x256, .f32⟩
  | .hbm, ⟨11, _⟩ => ⟨S64x256, .f32⟩
  | .hbm, ⟨12, _⟩ => ⟨S8x256, .f32⟩
  | .hbm, ⟨13, _⟩ => ⟨S4096x1, .i32⟩
  | .hbm, ⟨14, _⟩ => ⟨S4096x64x256, .f32⟩
  | .local _ .vmem, ⟨0, _⟩ => ⟨S64x8x64, .i32⟩
  | .local _ .vmem, ⟨1, _⟩ => ⟨S64x8x64, .i32⟩
  | .local _ .vmem, ⟨2, _⟩ => ⟨S64x8, .f32⟩
  | .local _ .vmem, ⟨3, _⟩ => ⟨S64x8, .f32⟩
  | .local _ .vmem, ⟨4, _⟩ => ⟨S64x8, .f32⟩
  | .local _ .vmem, ⟨5, _⟩ => ⟨S64x8, .f32⟩
  | .local _ .vmem, ⟨6, _⟩ => ⟨S64x4, .f32⟩
  | .local _ .vmem, ⟨7, _⟩ => ⟨S64x4, .f32⟩
  | .local _ .vmem, ⟨8, _⟩ => ⟨S64x64, .f32⟩
  | .local _ .vmem, ⟨9, _⟩ => ⟨S64x64, .f32⟩
  | .local _ .vmem, ⟨10, _⟩ => ⟨S64x8, .f32⟩
  | .local _ .vmem, ⟨11, _⟩ => ⟨S64x8, .f32⟩
  | .local _ .vmem, ⟨12, _⟩ => ⟨S64x1, .i32⟩
  | .local _ .vmem, ⟨13, _⟩ => ⟨S64x1, .i32⟩
  | .local _ .vmem, ⟨14, _⟩ => ⟨S105x256, .f32⟩
  | .local _ .vmem, ⟨15, _⟩ => ⟨S28x256, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S8x256, .f32⟩
  | .local _ .vmem, ⟨20, _⟩ => ⟨S64x64x256, .f32⟩
  | .local _ .vmem, ⟨21, _⟩ => ⟨S64x64x256, .f32⟩
  | _, _ => ⟨S4096x8x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S105x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S28x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4096_S4096x1 : S4096.ShapeCasts S4096x1
  inb_S105x256_S105x256_0_0 : ∀ a, (![0, 0] : Fin 2 → Nat) a + S105x256.size a ≤ S105x256.size a
  h_S105x256 : 0 < S105x256.numel
  bitsLt_bf16_f32 : FTy.bits .bf16 < FTy.bits .f32
  slices_S105x256_o104_0_S1x256 : S105x256.Slices ![104, 0] S1x256
  shapeCasts_S1x256_S256 : S1x256.ShapeCasts S256
  inb_S64x8x64_S64x8x64_0_0_0 : ∀ a, (![0, 0, 0] : Fin 3 → Nat) a + S64x8x64.size a ≤ S64x8x64.size a
  h_S64x8x64 : 0 < S64x8x64.numel
  iota_S1x1x13_d2_w32 : S1x1x13.Iotas .tc 32 [2]
  slices_S64x8x64_o0_0_0_S64x1x64 : S64x8x64.Slices ![0, 0, 0] S64x1x64
  shapeCasts_S64x1x64_S64x64 : S64x1x64.ShapeCasts S64x64
  shapeCasts_S64x64_S64x64x1 : S64x64.ShapeCasts S64x64x1
  broadcasts_S64x64x1_S64x64x13 : S64x64x1.Broadcasts S64x64x13
  broadcasts_S1x1x13_S64x64x13 : S1x1x13.Broadcasts S64x64x13
  natLt_1_32 : 1 < 32
  shapeCasts_S64x64x13_S4096x13 : S64x64x13.ShapeCasts S4096x13
  slices_S105x256_o0_0_S13x256 : S105x256.Slices ![0, 0] S13x256
  slices_S64x8x64_o0_1_0_S64x1x64 : S64x8x64.Slices ![0, 1, 0] S64x1x64
  slices_S105x256_o13_0_S13x256 : S105x256.Slices ![13, 0] S13x256
  slices_S64x8x64_o0_2_0_S64x1x64 : S64x8x64.Slices ![0, 2, 0] S64x1x64
  slices_S105x256_o26_0_S13x256 : S105x256.Slices ![26, 0] S13x256
  slices_S64x8x64_o0_3_0_S64x1x64 : S64x8x64.Slices ![0, 3, 0] S64x1x64
  slices_S105x256_o39_0_S13x256 : S105x256.Slices ![39, 0] S13x256
  slices_S64x8x64_o0_4_0_S64x1x64 : S64x8x64.Slices ![0, 4, 0] S64x1x64
  slices_S105x256_o52_0_S13x256 : S105x256.Slices ![52, 0] S13x256
  slices_S64x8x64_o0_5_0_S64x1x64 : S64x8x64.Slices ![0, 5, 0] S64x1x64
  slices_S105x256_o65_0_S13x256 : S105x256.Slices ![65, 0] S13x256
  slices_S64x8x64_o0_6_0_S64x1x64 : S64x8x64.Slices ![0, 6, 0] S64x1x64
  slices_S105x256_o78_0_S13x256 : S105x256.Slices ![78, 0] S13x256
  slices_S64x8x64_o0_7_0_S64x1x64 : S64x8x64.Slices ![0, 7, 0] S64x1x64
  slices_S105x256_o91_0_S13x256 : S105x256.Slices ![91, 0] S13x256
  shapeCasts_S4096x256_S64x64x256 : S4096x256.ShapeCasts S64x64x256
  inb_S64x64_S64x64_0_0 : ∀ a, (![0, 0] : Fin 2 → Nat) a + S64x64.size a ≤ S64x64.size a
  h_S64x64 : 0 < S64x64.numel
  shapeCasts_S256_S1x1x256 : S256.ShapeCasts S1x1x256
  broadcasts_S64x64x1_S64x64x256 : S64x64x1.Broadcasts S64x64x256
  broadcasts_S1x1x256_S64x64x256 : S1x1x256.Broadcasts S64x64x256
  inb_S64x8_S64x8_0_0 : ∀ a, (![0, 0] : Fin 2 → Nat) a + S64x8.size a ≤ S64x8.size a
  h_S64x8 : 0 < S64x8.numel
  inb_S64x4_S64x4_0_0 : ∀ a, (![0, 0] : Fin 2 → Nat) a + S64x4.size a ≤ S64x4.size a
  h_S64x4 : 0 < S64x4.numel
  concatenates_S64x8_S64x8_S64x4_S64x8_S64x28_d1 : Shape.Concatenates [S64x8, S64x8, S64x4, S64x8] S64x28 1
  inb_S28x256_S28x256_0_0 : ∀ a, (![0, 0] : Fin 2 → Nat) a + S28x256.size a ≤ S28x256.size a
  h_S28x256 : 0 < S28x256.numel
  shapeCasts_S64x256_S64x1x256 : S64x256.ShapeCasts S64x1x256
  broadcasts_S64x1x256_S64x64x256 : S64x1x256.Broadcasts S64x64x256
  inb_S64x256_S64x256_0_0 : ∀ a, (![0, 0] : Fin 2 → Nat) a + S64x256.size a ≤ S64x256.size a
  h_S64x256 : 0 < S64x256.numel
  shapeCasts_S64x256_S1x64x256 : S64x256.ShapeCasts S1x64x256
  broadcasts_S1x64x256_S64x64x256 : S1x64x256.Broadcasts S64x64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x8_d1_w32 : S1x8.Iotas .tc 32 [1]
  broadcasts_S64x1_S64x8 : S64x1.Broadcasts S64x8
  broadcasts_S1x8_S64x8 : S1x8.Broadcasts S64x8
  inb_S8x256_S8x256_0_0 : ∀ a, (![0, 0] : Fin 2 → Nat) a + S8x256.size a ≤ S8x256.size a
  h_S8x256 : 0 < S8x256.numel
  inb_S64x64x256_S64x64x256_0_0_0 : ∀ a, (![0, 0, 0] : Fin 3 → Nat) a + S64x64x256.size a ≤ S64x64x256.size a
  h_S64x64x256 : 0 < S64x64x256.numel
  dot_S4096x13_S13x256_S4096x256_1_0_0_1_n_n_wf : DotDims.WF S4096x13 S13x256 S4096x256 [1] [0] [0] [1] [] []
  dot_S64x28_S28x256_S64x256_1_0_0_1_n_n_wf : DotDims.WF S64x28 S28x256 S64x256 [1] [0] [0] [1] [] []
  dot_S64x8_S8x256_S64x256_1_0_0_1_n_n_wf : DotDims.WF S64x8 S8x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x64.size a ≤ S4096x8x64.size a
  hwx0_0 : ∀ i : grid0.Coords, EltTy.bits .i32 = 32 ∨ (Rect.block (s := S4096x8x64) S64x8x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S4096x8.size a
  hwx0_1 : ∀ i : grid0.Coords, EltTy.bits .f32 = 32 ∨ (Rect.block (s := S4096x8) S64x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S4096x8.size a
  hwx0_2 : ∀ i : grid0.Coords, EltTy.bits .f32 = 32 ∨ (Rect.block (s := S4096x8) S64x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S4096x4.size a
  hwx0_3 : ∀ i : grid0.Coords, EltTy.bits .f32 = 32 ∨ (Rect.block (s := S4096x4) S64x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S4096x64.size a
  hwx0_4 : ∀ i : grid0.Coords, EltTy.bits .f32 = 32 ∨ (Rect.block (s := S4096x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S4096x8.size a
  hwx0_5 : ∀ i : grid0.Coords, EltTy.bits .f32 = 32 ∨ (Rect.block (s := S4096x8) S64x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S4096x1.size a
  hwx0_6 : ∀ i : grid0.Coords, EltTy.bits .i32 = 32 ∨ (Rect.block (s := S4096x1) S64x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S105x256.size a ≤ S105x256.size a
  hwx0_7 : ∀ i : grid0.Coords, EltTy.bits .f32 = 32 ∨ (Rect.block (s := S105x256) S105x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S28x256.size a ≤ S28x256.size a
  hwx0_8 : ∀ i : grid0.Coords, EltTy.bits .f32 = 32 ∨ (Rect.block (s := S28x256) S28x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .f32 = 32 ∨ (Rect.block (s := S64x256) S64x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S64x256.size a
  hwx0_10 : ∀ i : grid0.Coords, EltTy.bits .f32 = 32 ∨ (Rect.block (s := S64x256) S64x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x256.size a ≤ S64x256.size a
  hwx0_11 : ∀ i : grid0.Coords, EltTy.bits .f32 = 32 ∨ (Rect.block (s := S64x256) S64x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x256.size a ≤ S8x256.size a
  hwx0_12 : ∀ i : grid0.Coords, EltTy.bits .f32 = 32 ∨ (Rect.block (s := S8x256) S8x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x64x256.size a ≤ S4096x64x256.size a
  hwx0_13 : ∀ i : grid0.Coords, EltTy.bits .f32 = 32 ∨ (Rect.block (s := S4096x64x256) S64x64x256.size (cc0_transform_13 i) (hinb0_13 i)).WholeWords (EltTy.packing .f32)

variable [Facts₀]

def dot_S4096x13_S13x256_S4096x256_1_0_0_1_n_n : DotDims S4096x13 S13x256 S4096x256 where
  lhsContracting := [1]
  rhsContracting := [0]
  lhsNonContracting := [0]
  rhsNonContracting := [1]
  lhsBatch := []
  rhsBatch := []
  wf := dot_S4096x13_S13x256_S4096x256_1_0_0_1_n_n_wf
def dot_S64x28_S28x256_S64x256_1_0_0_1_n_n : DotDims S64x28 S28x256 S64x256 where
  lhsContracting := [1]
  rhsContracting := [0]
  lhsNonContracting := [0]
  rhsNonContracting := [1]
  lhsBatch := []
  rhsBatch := []
  wf := dot_S64x28_S28x256_S64x256_1_0_0_1_n_n_wf
def dot_S64x8_S8x256_S64x256_1_0_0_1_n_n : DotDims S64x8 S8x256 S64x256 where
  lhsContracting := [1]
  rhsContracting := [0]
  lhsNonContracting := [0]
  rhsNonContracting := [1]
  lhsBatch := []
  rhsBatch := []
  wf := dot_S64x8_S8x256_S64x256_1_0_0_1_n_n_wf

abbrev win0_0 : Pipeline.Window sig grid0 :=
  Pipeline.Window.ofSpec (Memref.whole main_arg0) S64x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S105x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S28x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S8x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v1) S64x64x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x8x64 : Shape := ⟨3, ![4096, 8, 64]⟩
abbrev S4096x8 : Shape := ⟨2, ![4096, 8]⟩
abbrev S4096x4 : Shape := ⟨2, ![4096, 4]⟩
abbrev S4096x64 : Shape := ⟨2, ![4096, 64]⟩
abbrev S4096 : Shape := ⟨1, ![4096]⟩
abbrev S105x256 : Shape := ⟨2, ![105, 256]⟩
abbrev S28x256 : Shape := ⟨2, ![28, 256]⟩
abbrev S64x256 : Shape := ⟨2, ![64, 256]⟩
abbrev S8x256 : Shape := ⟨2, ![8, 256]⟩
abbrev S4096x8x64x1 : Shape := ⟨4, ![4096, 8, 64, 1]⟩
abbrev S1x1x1x13 : Shape := ⟨4, ![1, 1, 1, 13]⟩
abbrev S4096x8x64x13 : Shape := ⟨4, ![4096, 8, 64, 13]⟩
abbrev S4096x64x8x13 : Shape := ⟨4, ![4096, 64, 8, 13]⟩
abbrev S4096x64x104 : Shape := ⟨3, ![4096, 64, 104]⟩
abbrev S4096x64x1 : Shape := ⟨3, ![4096, 64, 1]⟩
abbrev S4096x64x105 : Shape := ⟨3, ![4096, 64, 105]⟩
abbrev S4096x28 : Shape := ⟨2, ![4096, 28]⟩
abbrev S4096x256 : Shape := ⟨2, ![4096, 256]⟩
abbrev S4096x64x256 : Shape := ⟨3, ![4096, 64, 256]⟩
abbrev S4096x1x256 : Shape := ⟨3, ![4096, 1, 256]⟩
abbrev S1x64x256 : Shape := ⟨3, ![1, 64, 256]⟩
abbrev S_ : Shape := ⟨0, ![]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x8x64, .i32⟩
  | .hbm, ⟨1, _⟩ => ⟨S4096x8, .f32⟩
  | .hbm, ⟨2, _⟩ => ⟨S4096x8, .f32⟩
  | .hbm, ⟨3, _⟩ => ⟨S4096x4, .f32⟩
  | .hbm, ⟨4, _⟩ => ⟨S4096x64, .f32⟩
  | .hbm, ⟨5, _⟩ => ⟨S4096x8, .f32⟩
  | .hbm, ⟨6, _⟩ => ⟨S4096, .i32⟩
  | .hbm, ⟨7, _⟩ => ⟨S105x256, .f32⟩
  | .hbm, ⟨8, _⟩ => ⟨S28x256, .f32⟩
  | .hbm, ⟨9, _⟩ => ⟨S64x256, .f32⟩
  | .hbm, ⟨10, _⟩ => ⟨S64x256, .f32⟩
  | .hbm, ⟨11, _⟩ => ⟨S64x256, .f32⟩
  | .hbm, ⟨12, _⟩ => ⟨S8x256, .f32⟩
  | .hbm, ⟨13, _⟩ => ⟨S4096x8x64x1, .i32⟩
  | .hbm, ⟨14, _⟩ => ⟨S1x1x1x13, .i32⟩
  | .hbm, ⟨15, _⟩ => ⟨S4096x8x64x13, .i32⟩
  | .hbm, ⟨16, _⟩ => ⟨S4096x8x64x13, .i32⟩
  | .hbm, ⟨17, _⟩ => ⟨S4096x8x64x13, .i1⟩
  | .hbm, ⟨18, _⟩ => ⟨S4096x8x64x13, .f32⟩
  | .hbm, ⟨19, _⟩ => ⟨S4096x64x8x13, .f32⟩
  | .hbm, ⟨20, _⟩ => ⟨S4096x64x104, .f32⟩
  | .hbm, ⟨21, _⟩ => ⟨S4096x64x1, .f32⟩
  | .hbm, ⟨22, _⟩ => ⟨S4096x64x105, .f32⟩
  | .hbm, ⟨23, _⟩ => ⟨S4096x28, .f32⟩
  | .hbm, ⟨24, _⟩ => ⟨S4096x256, .f32⟩
  | .hbm, ⟨25, _⟩ => ⟨S4096x64x256, .f32⟩
  | .hbm, ⟨26, _⟩ => ⟨S4096x1x256, .f32⟩
  | .hbm, ⟨27, _⟩ => ⟨S4096x64x256, .f32⟩
  | .hbm, ⟨28, _⟩ => ⟨S4096x64x256, .f32⟩
  | .hbm, ⟨29, _⟩ => ⟨S1x64x256, .f32⟩
  | .hbm, ⟨30, _⟩ => ⟨S4096x64x256, .f32⟩
  | .hbm, ⟨31, _⟩ => ⟨S4096x64x256, .f32⟩
  | .hbm, ⟨32, _⟩ => ⟨S1x64x256, .f32⟩
  | .hbm, ⟨33, _⟩ => ⟨S4096x64x256, .f32⟩
  | .hbm, ⟨34, _⟩ => ⟨S4096x64x256, .f32⟩
  | .hbm, ⟨35, _⟩ => ⟨S1x64x256, .f32⟩
  | .hbm, ⟨36, _⟩ => ⟨S4096x64x256, .f32⟩
  | .hbm, ⟨37, _⟩ => ⟨S4096x64x256, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x256, .f32⟩
  | .hbm, ⟨47, _⟩ => ⟨S4096x1x256, .f32⟩
  | .hbm, ⟨48, _⟩ => ⟨S4096x64x256, .f32⟩
  | .hbm, ⟨49, _⟩ => ⟨S4096x64x256, .f32⟩
  | _, _ => ⟨S4096x8x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096x8x64_S4096x8x64x1_0_1_2 : S4096x8x64.BroadcastsInDim S4096x8x64x1 (![0, 1, 2] : Fin 3 → Fin S4096x8x64x1.rank)
  bcast_S4096x8x64x1_S4096x8x64x13_0_1_2_3 : S4096x8x64x1.BroadcastsInDim S4096x8x64x13 (![0, 1, 2, 3] : Fin 4 → Fin S4096x8x64x13.rank)
  bcast_S1x1x1x13_S4096x8x64x13_0_1_2_3 : S1x1x1x13.BroadcastsInDim S4096x8x64x13 (![0, 1, 2, 3] : Fin 4 → Fin S4096x8x64x13.rank)
  transposes_S4096x8x64x13_S4096x64x8x13_0_2_1_3 : S4096x8x64x13.Transposes [0, 2, 1, 3] S4096x64x8x13
  shapeCasts_S4096x64x8x13_S4096x64x104 : S4096x64x8x13.ShapeCasts S4096x64x104
  bcast_S4096x64_S4096x64x1_0_1 : S4096x64.BroadcastsInDim S4096x64x1 (![0, 1] : Fin 2 → Fin S4096x64x1.rank)
  concatenates_S4096x64x104_S4096x64x1_S4096x64x105_d2 : Shape.Concatenates [S4096x64x104, S4096x64x1] S4096x64x105 2
  concatenates_S4096x8_S4096x8_S4096x4_S4096x8_S4096x28_d1 : Shape.Concatenates [S4096x8, S4096x8, S4096x4, S4096x8] S4096x28 1
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  bcast_S64x256_S1x64x256_1_2 : S64x256.BroadcastsInDim S1x64x256 (![1, 2] : Fin 2 → Fin S1x64x256.rank)
  bcast_S1x64x256_S4096x64x256_0_1_2 : S1x64x256.BroadcastsInDim S4096x64x256 (![0, 1, 2] : Fin 3 → Fin S4096x64x256.rank)
  bcast_S_S4096 : S_.BroadcastsInDim S4096 (![] : Fin 0 → Fin S4096.rank)
  bcast_S4096_S4096x1_0 : S4096.BroadcastsInDim S4096x1 (![0] : Fin 1 → Fin S4096x1.rank)
  dot_S4096x28_S28x256_S4096x256_1_0_0_1_n_n_wf : DotDims.WF S4096x28 S28x256 S4096x256 [1] [0] [0] [1] [] []
  dot_S4096x64x105_S105x256_S4096x64x256_2_0_01_1_n_n_wf : DotDims.WF S4096x64x105 S105x256 S4096x64x256 [2] [0] [0, 1] [1] [] []
  gather_S8x256_S4096x1_S4096x256_1_0_n_n_0_1_1256_wf : GatherDims.WF S8x256 S4096x1 S4096x256 [1] [0] [] [0] [] 1 ![1, 256]

variable [Facts₀]

def dot_S4096x28_S28x256_S4096x256_1_0_0_1_n_n : DotDims S4096x28 S28x256 S4096x256 where
  lhsContracting := [1]
  rhsContracting := [0]
  lhsNonContracting := [0]
  rhsNonContracting := [1]
  lhsBatch := []
  rhsBatch := []
  wf := dot_S4096x28_S28x256_S4096x256_1_0_0_1_n_n_wf
def dot_S4096x64x105_S105x256_S4096x64x256_2_0_01_1_n_n : DotDims S4096x64x105 S105x256 S4096x64x256 where
  lhsContracting := [2]
  rhsContracting := [0]
  lhsNonContracting := [0, 1]
  rhsNonContracting := [1]
  lhsBatch := []
  rhsBatch := []
  wf := dot_S4096x64x105_S105x256_S4096x64x256_2_0_01_1_n_n_wf
def gather_S8x256_S4096x1_S4096x256_1_0_n_n_0_1_1256 : GatherDims S8x256 S4096x1 S4096x256 where
  offsetDims := [1]
  collapsedSliceDims := [0]
  operandBatchingDims := []
  startIndicesBatchingDims := []
  startIndexMap := [0]
  indexVectorDim := 1
  sliceSizes := ![1, 256]
  wf := gather_S8x256_S4096x1_S4096x256_1_0_n_n_0_1_1256_wf

class Facts : Prop extends Facts₀ where

variable [Facts]
-- ==== Proof.Spec.lean ====
/-
  The per-square input encoder as one function of its inputs, element by element.

  For batch row `b`, board square `s` and model coordinate `d` the result is

    (((Σ_h Σ_p [code(b,h,s) = p] · Wb(13 h + p, d) + ep(b,s) · Wb(104, d)) + Σ_k meta(b,k) · Wm(k, d)) + emb(s,d)) · scale(s,d)
      + bias(s,d) + Σ_j [tc(b) = j] · tbl(j, d)

  over the extended reals: a one-hot encoding of the eight history boards (13 piece classes each) times the board
  weight, the en-passant flag times the weight's last row, the 28 meta features of the row times the meta weight, the
  square embedding, an affine map per square, and the row of the time-control table the category selects, written as
  the one-hot sum over the table's eight rows. `cell` is that value as a function of the row data it depends on;
  `encArr` reads the row data off the whole arrays.

  Two laws of finite sums are all the algebra the two programs' agreement needs, and both hold at the infinities too
  (they use `0 · x = 0`, `1 · x = x`, and that a finite sum may be regrouped): a sum over the 105 rows of the
  board weight is the double sum over (history step, piece class) plus the last row's term (`sum_board_split`), and a
  one-hot sum over the eight table rows is the selected row when the category is one of the eight (`sum_hot`).
-/
import Idealize.ShloMosaic.PureOps.Ideal
import Idealize.ShloMosaic.Lib.ValueIdx
import Idealize.ShloMosaic.Lib.Affine

noncomputable section

open scoped BigOperators

namespace Cert.Encoder

open Idealize.ShloMosaic Idealize.ShloMosaic.ValueIdx

/-- The one-hot entry of class `p` for a code word `w`: 1 when the word is `p`, else 0. -/
def hot (w : BitVec 32) (p : ℕ) : EReal := if w = BitVec.ofNat 32 p then 1 else 0

/-- Row `13 h + p` of the board weight: piece class `p` at history step `h`. -/
abbrev boardRow (h : Fin 8) (p : Fin 13) : Fin 105 := ⟨13 * h.val + p.val, by have := h.isLt; have := p.isLt; omega⟩

/-- The board weight's last row, the en-passant feature's. -/
abbrev epRow : Fin 105 := ⟨104, by decide⟩

/-- The meta features of one batch row side by side: time (8), repetition (8), castling (4), scalars (8). -/
def metaRow (t r : Fin 8 → EReal) (c : Fin 4 → EReal) (s : Fin 8 → EReal) (k : Fin 28) : EReal :=
  if h0 : k.val < 8 then t ⟨k.val, h0⟩
  else if h1 : k.val < 16 then r ⟨k.val - 8, by omega⟩
  else if h2 : k.val < 20 then c ⟨k.val - 16, by omega⟩
  else s ⟨k.val - 20, by have := k.isLt; omega⟩

/-- One element of the result from the row data it depends on: the eight code words of the square, its en-passant
    entry, the row's meta features and category word, the weights, and the square's embedding, scale and bias at `d`. -/
def cell (code : Fin 8 → BitVec 32) (epv : EReal) (mrow : Fin 28 → EReal) (tcw : BitVec 32)
    (Wb : (⟨2, ![105, 256]⟩ : Shape).Idx → EReal) (Wm : (⟨2, ![28, 256]⟩ : Shape).Idx → EReal)
    (e sc bi : EReal) (tbl : (⟨2, ![8, 256]⟩ : Shape).Idx → EReal) (d : Fin 256) : EReal :=
  ((((∑ h : Fin 8, ∑ p : Fin 13, hot (code h) p.val * Wb (ix2 (boardRow h p) d))
      + epv * Wb (ix2 epRow d))
     + ∑ k : Fin 28, mrow k * Wm (ix2 k d)) + e) * sc + bi
   + ∑ j : Fin 8, hot tcw j.val * tbl (ix2 j d)

/-- The result at batch row `b`, square `s`, coordinate `d`, from the whole arrays. -/
def encAt (codes : (⟨3, ![4096, 8, 64]⟩ : Shape).Idx → BitVec 32)
    (tm rp : (⟨2, ![4096, 8]⟩ : Shape).Idx → EReal) (cs : (⟨2, ![4096, 4]⟩ : Shape).Idx → EReal)
    (ep : (⟨2, ![4096, 64]⟩ : Shape).Idx → EReal) (sv : (⟨2, ![4096, 8]⟩ : Shape).Idx → EReal)
    (tc : (⟨1, ![4096]⟩ : Shape).Idx → BitVec 32)
    (Wb : (⟨2, ![105, 256]⟩ : Shape).Idx → EReal) (Wm : (⟨2, ![28, 256]⟩ : Shape).Idx → EReal)
    (emb scale bias : (⟨2, ![64, 256]⟩ : Shape).Idx → EReal) (tbl : (⟨2, ![8, 256]⟩ : Shape).Idx → EReal)
    (b : Fin 4096) (s : Fin 64) (d : Fin 256) : EReal :=
  cell (fun h => codes (ix3 b h s)) (ep (ix2 b s))
    (metaRow (fun k => tm (ix2 b k)) (fun k => rp (ix2 b k)) (fun k => cs (ix2 b k)) (fun k => sv (ix2 b k)))
    (tc (ix1 b)) Wb Wm (emb (ix2 s d)) (scale (ix2 s d)) (bias (ix2 s d)) tbl d

/-- The whole result array. -/
def encArr (codes : (⟨3, ![4096, 8, 64]⟩ : Shape).Idx → BitVec 32)
    (tm rp : (⟨2, ![4096, 8]⟩ : Shape).Idx → EReal) (cs : (⟨2, ![4096, 4]⟩ : Shape).Idx → EReal)
    (ep : (⟨2, ![4096, 64]⟩ : Shape).Idx → EReal) (sv : (⟨2, ![4096, 8]⟩ : Shape).Idx → EReal)
    (tc : (⟨1, ![4096]⟩ : Shape).Idx → BitVec 32)
    (Wb : (⟨2, ![105, 256]⟩ : Shape).Idx → EReal) (Wm : (⟨2, ![28, 256]⟩ : Shape).Idx → EReal)
    (emb scale bias : (⟨2, ![64, 256]⟩ : Shape).Idx → EReal) (tbl : (⟨2, ![8, 256]⟩ : Shape).Idx → EReal) :
    (⟨3, ![4096, 64, 256]⟩ : Shape).Idx → EReal :=
  fun i => encAt codes tm rp cs ep sv tc Wb Wm emb scale bias tbl
    ⟨(i 0).val, (i 0).isLt⟩ ⟨(i 1).val, (i 1).isLt⟩ ⟨(i 2).val, (i 2).isLt⟩

theorem encArr_ix3 (codes : (⟨3, ![4096, 8, 64]⟩ : Shape).Idx → BitVec 32)
    (tm rp : (⟨2, ![4096, 8]⟩ : Shape).Idx → EReal) (cs : (⟨2, ![4096, 4]⟩ : Shape).Idx → EReal)
    (ep : (⟨2, ![4096, 64]⟩ : Shape).Idx → EReal) (sv : (⟨2, ![4096, 8]⟩ : Shape).Idx → EReal)
    (tc : (⟨1, ![4096]⟩ : Shape).Idx → BitVec 32)
    (Wb : (⟨2, ![105, 256]⟩ : Shape).Idx → EReal) (Wm : (⟨2, ![28, 256]⟩ : Shape).Idx → EReal)
    (emb scale bias : (⟨2, ![64, 256]⟩ : Shape).Idx → EReal) (tbl : (⟨2, ![8, 256]⟩ : Shape).Idx → EReal)
    (b : Fin 4096) (s : Fin 64) (d : Fin 256) :
    encArr codes tm rp cs ep sv tc Wb Wm emb scale bias tbl (ix3 b s d)
      = encAt codes tm rp cs ep sv tc Wb Wm emb scale bias tbl b s d := rfl

/-! ## The compare bit as a number -/

/-- A compare-equal bit converted unsigned is the one-hot entry. -/
theorem uitofp_cmpi_eq (w : BitVec 32) (p : ℕ) :
    (FloatOps.uitofp .f32 (IntOp.cmpi .eq w (BitVec.ofNat 32 p)) : Ideal .f32) = hot w p := by
  show (((IntOp.cmpi .eq w (BitVec.ofNat 32 p)).toNat : ℝ) : EReal) = hot w p
  unfold hot
  by_cases h : w = BitVec.ofNat 32 p
  · rw [if_pos h, (IntOp.cmpi_eq).2 h]; simp
  · rw [if_neg h, eq_zero_of_ne_one (fun h1 => h ((IntOp.cmpi_eq).1 h1))]; simp

/-- The same bit widened to a word and converted signed is the one-hot entry too. -/
theorem sitofp_cmpi_eq (w : BitVec 32) (p : ℕ) :
    (FloatOps.sitofp .f32 ((IntOp.cmpi .eq w (BitVec.ofNat 32 p)).setWidth 32) : Ideal .f32) = hot w p := by
  show (((((IntOp.cmpi .eq w (BitVec.ofNat 32 p)).setWidth 32).toInt : ℤ) : ℝ) : EReal) = hot w p
  unfold hot
  by_cases h : w = BitVec.ofNat 32 p
  · rw [if_pos h, (IntOp.cmpi_eq).2 h]; simp
  · rw [if_neg h, eq_zero_of_ne_one (fun h1 => h ((IntOp.cmpi_eq).1 h1))]; simp

/-! ## The two laws of finite sums -/

/-- A sum over the 105 rows of the board weight is the double sum over history step and piece class, plus the
    last row's term. -/
theorem sum_board_split (f : Fin 105 → EReal) :
    ∑ k : Fin 105, f k = (∑ h : Fin 8, ∑ p : Fin 13, f (boardRow h p)) + f epRow := by
  have e : (∑ x : Fin 104, f (Fin.castSucc x)) = ∑ hp : Fin 8 × Fin 13, f (boardRow hp.1 hp.2) := by
    refine (Equiv.sum_comp (finProdFinEquiv (m := 8) (n := 13)) (fun x : Fin 104 => f (Fin.castSucc x))).symm.trans ?_
    refine Finset.sum_congr rfl fun hp _ => congrArg f (Fin.ext ?_)
    show hp.2.val + 13 * hp.1.val = 13 * hp.1.val + hp.2.val
    omega
  rw [show (∑ k : Fin 105, f k) = ∑ k : Fin (104 + 1), f k from rfl, Fin.sum_univ_castSucc, e, Fintype.sum_prod_type]
  rfl

/-- A one-hot sum over the table's eight rows is the row the category selects, when it is one of the eight. -/
theorem sum_hot (t : BitVec 32) (ht : t.toNat < 8) (x : Fin 8 → EReal) :
    ∑ j : Fin 8, hot t j.val * x j = x ⟨t.toNat, ht⟩ := by
  rw [Finset.sum_eq_single (⟨t.toNat, ht⟩ : Fin 8)]
  · have h : t = BitVec.ofNat 32 t.toNat := BitVec.eq_of_toNat_eq (by rw [BitVec.toNat_ofNat]; omega)
    unfold hot
    rw [if_pos h, one_mul]
  · intro j _ hj
    have h : ¬ t = BitVec.ofNat 32 j.val := fun h => hj (Fin.ext (by
      have := congrArg BitVec.toNat h
      rw [BitVec.toNat_ofNat] at this
      have hj8 := j.isLt
      show j.val = t.toNat
      omega))
    unfold hot
    rw [if_neg h, zero_mul]
  · intro h; exact absurd (Finset.mem_univ _) h

end Cert.Encoder

end
-- ==== Proof.KHot.lean ====
/-
  The one-hot block of one history step and its product with the matching 13 rows of the board weight, read at an index.

  For history step `o` the body compares the step's codes (a [64,64] slab of the [64,8,64] block, laid along a third
  axis) with the class numbers 0 … 12 along that axis, turns the compare bit into a number, flattens (batch row, square)
  to one axis of 4096 and multiplies by rows `13 o … 13 o + 12` of the weight. At flattened row `r` and model
  coordinate `d` that is  Σ_p [code(r / 64, o, r % 64) = p] · W(13 o + p, d)  — the row `r` is batch row `r / 64`,
  square `r % 64`, because the flattening is row-major.
-/
import proofs.«425434_j35682588295306_2_alg».proof.Proof.Gen.KernelIdeal
import proofs.«425434_j35682588295306_2_alg».proof.Proof.Spec
import Idealize.ShloMosaic.Lib.Pipeline.Value
import Idealize.ShloMosaic.Lib.ValueIdx
import Idealize.ShloMosaic.PureOps.Ideal.Laws

noncomputable section

open scoped BigOperators

namespace Cert.Encoder.KernelSide

open Cert.KernelIdeal Cert.KernelIdeal.Gen Idealize.ShloMosaic Idealize.ShloMosaic.ValueIdx Cert.Encoder

/-! ## The [4096,13] × [13,256] product at an index -/

theorem lhs13_0 (i : S4096x256.Idx) (q : dot_S4096x13_S13x256_S4096x256_1_0_0_1_n_n.contr.Idx) :
    (dot_S4096x13_S13x256_S4096x256_1_0_0_1_n_n.lhsIdx i q 0).val = (i 0).val := by
  unfold DotDims.lhsIdx
  rw [dif_neg (show ¬(0 : Fin S4096x13.rank) ∈ dot_S4096x13_S13x256_S4096x256_1_0_0_1_n_n.lhsBatch by decide), dif_pos (show (0 : Fin S4096x13.rank) ∈ dot_S4096x13_S13x256_S4096x256_1_0_0_1_n_n.lhsNonContracting by decide)]
  rfl
theorem lhs13_1 (i : S4096x256.Idx) (q : dot_S4096x13_S13x256_S4096x256_1_0_0_1_n_n.contr.Idx) :
    (dot_S4096x13_S13x256_S4096x256_1_0_0_1_n_n.lhsIdx i q 1).val = (q ⟨0, by decide⟩).val :=
  dot_S4096x13_S13x256_S4096x256_1_0_0_1_n_n.lhsIdx_val_of_single rfl i q
theorem rhs13_0 (i : S4096x256.Idx) (q : dot_S4096x13_S13x256_S4096x256_1_0_0_1_n_n.contr.Idx) :
    (dot_S4096x13_S13x256_S4096x256_1_0_0_1_n_n.rhsIdx i q 0).val = (q ⟨0, by decide⟩).val :=
  dot_S4096x13_S13x256_S4096x256_1_0_0_1_n_n.rhsIdx_val_of_single rfl i q
theorem rhs13_1 (i : S4096x256.Idx) (q : dot_S4096x13_S13x256_S4096x256_1_0_0_1_n_n.contr.Idx) :
    (dot_S4096x13_S13x256_S4096x256_1_0_0_1_n_n.rhsIdx i q 1).val = (i 1).val := by
  unfold DotDims.rhsIdx
  rw [dif_neg (show ¬(1 : Fin S13x256.rank) ∈ dot_S4096x13_S13x256_S4096x256_1_0_0_1_n_n.rhsBatch by decide), dif_pos (show (1 : Fin S13x256.rank) ∈ dot_S4096x13_S13x256_S4096x256_1_0_0_1_n_n.rhsNonContracting by decide)]
  rfl

/-- The product into a zero accumulator, at row `r` and column `d`: the sum over the 13 contracted entries. -/
theorem matmul13_apply (L : FVec Ideal S4096x13 .bf16) (R : FVec Ideal S13x256 .bf16) (r : Fin 4096) (d : Fin 256) :
    matmul dot_S4096x13_S13x256_S4096x256_1_0_0_1_n_n none L R (constant (F := Ideal) S4096x256 .f32 0x00000000#32) (ix2 r d)
      = ∑ k : Fin 13, L (ix2 r k) * R (ix2 k d) := by
  simp only [matmul]
  rw [Ideal.matmul_constant_zero_apply, ← Equiv.sum_comp (ValueIdx.contrEquiv1 dot_S4096x13_S13x256_S4096x256_1_0_0_1_n_n 13 rfl rfl).symm]
  refine Finset.sum_congr rfl fun k _ => ?_
  have hk := ValueIdx.contrEquiv1_symm_val dot_S4096x13_S13x256_S4096x256_1_0_0_1_n_n 13 rfl rfl k
  have el : dot_S4096x13_S13x256_S4096x256_1_0_0_1_n_n.lhsIdx (ix2 r d) ((ValueIdx.contrEquiv1 dot_S4096x13_S13x256_S4096x256_1_0_0_1_n_n 13 rfl rfl).symm k) = ix2 r k := funext fun a => Fin.ext (by
    match a with
    | ⟨0, _⟩ => exact lhs13_0 _ _
    | ⟨1, _⟩ => exact (lhs13_1 _ _).trans hk)
  have er : dot_S4096x13_S13x256_S4096x256_1_0_0_1_n_n.rhsIdx (ix2 r d) ((ValueIdx.contrEquiv1 dot_S4096x13_S13x256_S4096x256_1_0_0_1_n_n 13 rfl rfl).symm k) = ix2 k d := funext fun a => Fin.ext (by
    match a with
    | ⟨0, _⟩ => exact (rhs13_0 _ _).trans hk
    | ⟨1, _⟩ => exact rhs13_1 _ _)
  rw [el, er]

/-! ## The one-hot block -/

/-- The one-hot block of history step `o`, as the body computes it: the step's codes against the class numbers. -/
def hotVec (codes : IVec S64x8x64 32) (o : ℕ) (hs : S64x8x64.Slices ![0, o, 0] S64x1x64) : FVec Ideal S64x64x13 .f32 :=
  sitofp .f32 (extui 32 (cmpi .eq
    (broadcastTo S64x64x13 (shapeCast S64x64x1 (shapeCast S64x64 (extractStridedSlice S64x1x64 ![0, o, 0] codes hs) shapeCasts_S64x1x64_S64x64) shapeCasts_S64x64_S64x64x1) broadcasts_S64x64x1_S64x64x13)
    (broadcastTo S64x64x13 (iota .tc S1x1x13 32 [2] iota_S1x1x13_d2_w32) broadcasts_S1x1x13_S64x64x13)) natLt_1_32)

/-- Entry (batch row, square, class) of the block is the one-hot entry of that square's code at step `o`. -/
theorem hotVec_apply (codes : IVec S64x8x64 32) (o : ℕ) (ho : o < 8) (hs : S64x8x64.Slices ![0, o, 0] S64x1x64)
    (i s : Fin 64) (p : Fin 13) :
    hotVec codes o hs (ix3 i s p) = hot (codes (ix3 i (⟨o, ho⟩ : Fin 8) s)) p.val := by
  have hA : (broadcastTo S64x64x13 (shapeCast S64x64x1 (shapeCast S64x64 (extractStridedSlice S64x1x64 ![0, o, 0] codes hs) shapeCasts_S64x1x64_S64x64) shapeCasts_S64x64_S64x64x1) broadcasts_S64x64x1_S64x64x13) (ix3 i s p)
      = codes (ix3 i (⟨o, ho⟩ : Fin 8) s) := by
    refine (broadcastTo_apply _ broadcasts_S64x64x1_S64x64x13 (ix3 i s p) (ix3 i s (0 : Fin 1)) (fun a => match a with
      | ⟨0, _⟩ => by show i.val = if (64 : Nat) = 1 then 0 else i.val; rw [if_neg (by decide)]
      | ⟨1, _⟩ => by show s.val = if (64 : Nat) = 1 then 0 else s.val; rw [if_neg (by decide)]
      | ⟨2, _⟩ => by show (0 : Nat) = if (1 : Nat) = 1 then 0 else p.val; rw [if_pos rfl])).trans ?_
    refine (shapeCast_apply _ shapeCasts_S64x64_S64x64x1 (ix3 i s (0 : Fin 1)) (ix2 i s) (by
      rw [Shape.rowMajor_val_two, Shape.rowMajor_val_three]
      show i.val * 64 + s.val = (i.val * 64 + s.val) * 1 + 0
      omega)).trans ?_
    refine (shapeCast_apply _ shapeCasts_S64x1x64_S64x64 (ix2 i s) (ix3 i (0 : Fin 1) s) (by
      rw [Shape.rowMajor_val_three, Shape.rowMajor_val_two]
      show (i.val * 1 + 0) * 64 + s.val = i.val * 64 + s.val
      omega)).trans ?_
    exact extractStridedSlice_apply ![0, o, 0] codes hs (ix3 i (0 : Fin 1) s) (ix3 i (⟨o, ho⟩ : Fin 8) s) (fun a => match a with
      | ⟨0, _⟩ => by show i.val = 0 + i.val; omega
      | ⟨1, _⟩ => by show o = o + 0; omega
      | ⟨2, _⟩ => by show s.val = 0 + s.val; omega)
  have hB : (broadcastTo S64x64x13 (iota .tc S1x1x13 32 [2] iota_S1x1x13_d2_w32) broadcasts_S1x1x13_S64x64x13) (ix3 i s p)
      = BitVec.ofNat 32 p.val := by
    refine (broadcastTo_apply _ broadcasts_S1x1x13_S64x64x13 (ix3 i s p) (ix3 (0 : Fin 1) (0 : Fin 1) p) (fun a => match a with
      | ⟨0, _⟩ => by show (0 : Nat) = if (1 : Nat) = 1 then 0 else i.val; rw [if_pos rfl]
      | ⟨1, _⟩ => by show (0 : Nat) = if (1 : Nat) = 1 then 0 else s.val; rw [if_pos rfl]
      | ⟨2, _⟩ => by show p.val = if (13 : Nat) = 1 then 0 else p.val; rw [if_neg (by decide)])).trans ?_
    exact iota_single_apply .tc S1x1x13 32 2 iota_S1x1x13_d2_w32 (ix3 (0 : Fin 1) (0 : Fin 1) p)
  show FloatOps.sitofp .f32 ((IntOp.cmpi .eq _ _).setWidth 32) = _
  rw [hA, hB]
  exact sitofp_cmpi_eq _ _

/-! ## The block times its rows of the weight -/

/-- The block of step `o`, flattened over (batch row, square), times rows `o13 … o13 + 12` of the weight. -/
def hotMM (codes : IVec S64x8x64 32) (W : FVec Ideal S105x256 .bf16) (o o13 : ℕ)
    (hs : S64x8x64.Slices ![0, o, 0] S64x1x64) (hw : S105x256.Slices ![o13, 0] S13x256) : FVec Ideal S4096x256 .f32 :=
  matmul dot_S4096x13_S13x256_S4096x256_1_0_0_1_n_n none
    (shapeCast S4096x13 (truncf .bf16 (hotVec codes o hs) bitsLt_bf16_f32) shapeCasts_S64x64x13_S4096x13)
    (extractStridedSlice S13x256 ![o13, 0] W hw)
    (constant S4096x256 .f32 0x00000000#32)

/-- At flattened row `r` (batch row `r / 64`, square `r % 64`) and coordinate `d`: the one-hot sum over the 13 classes
    against rows `13 o + p` of the weight. -/
theorem hotMM_apply (codes : IVec S64x8x64 32) (W : FVec Ideal S105x256 .bf16) (o o13 : ℕ) (ho : o < 8) (h13 : o13 = 13 * o)
    (hs : S64x8x64.Slices ![0, o, 0] S64x1x64) (hw : S105x256.Slices ![o13, 0] S13x256) (i s : Fin 64) (d : Fin 256) :
    hotMM codes W o o13 hs hw (ix2 (⟨i.val * 64 + s.val, by have := i.isLt; have := s.isLt; omega⟩ : Fin 4096) d)
      = ∑ p : Fin 13, hot (codes (ix3 i (⟨o, ho⟩ : Fin 8) s)) p.val * W (ix2 (boardRow ⟨o, ho⟩ p) d) := by
  unfold hotMM
  rw [matmul13_apply]
  refine Finset.sum_congr rfl fun p _ => ?_
  congr 1
  · refine (shapeCast_apply _ shapeCasts_S64x64x13_S4096x13 _ (ix3 i s p) (by
      rw [Shape.rowMajor_val_three, Shape.rowMajor_val_two]
      show (i.val * 64 + s.val) * 13 + p.val = (i.val * 64 + s.val) * 13 + p.val
      rfl)).trans ?_
    exact hotVec_apply codes o ho hs i s p
  · exact extractStridedSlice_apply ![o13, 0] W hw (ix2 p d) (ix2 (boardRow ⟨o, ho⟩ p) d) (fun a => match a with
      | ⟨0, _⟩ => by show 13 * o + p.val = o13 + p.val; omega
      | ⟨1, _⟩ => by show d.val = 0 + d.val; omega)

end Cert.Encoder.KernelSide

end
-- ==== Proof.KPay.lean ====
/-
  The body's arithmetic after the one-hot blocks, read at an index, and the body's pieces over these readings.

  Everything here is one of three kinds. A per-row, per-square or per-coordinate quantity laid over the [64,64,256]
  block by a cast that adds a unit axis and a broadcast along it reads the quantity at the matching coordinates. The
  meta features' concatenation along the feature axis is `metaRow` of the four pieces. The category one-hot is `hot`
  of the row's category word. The products are sums over the contracted axis.
-/
import proofs.«425434_j35682588295306_2_alg».proof.Proof.Gen.KernelIdeal.Skeleton
import proofs.«425434_j35682588295306_2_alg».proof.Proof.KHot

noncomputable section

open scoped BigOperators

namespace Cert.Encoder.KernelSide

open Cert.KernelIdeal Cert.KernelIdeal.Gen Idealize.ShloMosaic Idealize.ShloMosaic.ValueIdx Cert.Encoder

/-! ## The two small products at an index -/

theorem lhs28_0 (i : S64x256.Idx) (q : dot_S64x28_S28x256_S64x256_1_0_0_1_n_n.contr.Idx) :
    (dot_S64x28_S28x256_S64x256_1_0_0_1_n_n.lhsIdx i q 0).val = (i 0).val := by
  unfold DotDims.lhsIdx
  rw [dif_neg (show ¬(0 : Fin S64x28.rank) ∈ dot_S64x28_S28x256_S64x256_1_0_0_1_n_n.lhsBatch by decide), dif_pos (show (0 : Fin S64x28.rank) ∈ dot_S64x28_S28x256_S64x256_1_0_0_1_n_n.lhsNonContracting by decide)]
  rfl
theorem lhs28_1 (i : S64x256.Idx) (q : dot_S64x28_S28x256_S64x256_1_0_0_1_n_n.contr.Idx) :
    (dot_S64x28_S28x256_S64x256_1_0_0_1_n_n.lhsIdx i q 1).val = (q ⟨0, by decide⟩).val :=
  dot_S64x28_S28x256_S64x256_1_0_0_1_n_n.lhsIdx_val_of_single rfl i q
theorem rhs28_0 (i : S64x256.Idx) (q : dot_S64x28_S28x256_S64x256_1_0_0_1_n_n.contr.Idx) :
    (dot_S64x28_S28x256_S64x256_1_0_0_1_n_n.rhsIdx i q 0).val = (q ⟨0, by decide⟩).val :=
  dot_S64x28_S28x256_S64x256_1_0_0_1_n_n.rhsIdx_val_of_single rfl i q
theorem rhs28_1 (i : S64x256.Idx) (q : dot_S64x28_S28x256_S64x256_1_0_0_1_n_n.contr.Idx) :
    (dot_S64x28_S28x256_S64x256_1_0_0_1_n_n.rhsIdx i q 1).val = (i 1).val := by
  unfold DotDims.rhsIdx
  rw [dif_neg (show ¬(1 : Fin S28x256.rank) ∈ dot_S64x28_S28x256_S64x256_1_0_0_1_n_n.rhsBatch by decide), dif_pos (show (1 : Fin S28x256.rank) ∈ dot_S64x28_S28x256_S64x256_1_0_0_1_n_n.rhsNonContracting by decide)]
  rfl

/-- The meta features times the meta weight, at batch row `r` and coordinate `d`: the sum over the 28 features. -/
theorem matmul28_apply (L : FVec Ideal S64x28 .bf16) (R : FVec Ideal S28x256 .bf16) (r : Fin 64) (d : Fin 256) :
    matmul dot_S64x28_S28x256_S64x256_1_0_0_1_n_n none L R (constant (F := Ideal) S64x256 .f32 0x00000000#32) (ix2 r d)
      = ∑ k : Fin 28, L (ix2 r k) * R (ix2 k d) := by
  simp only [matmul]
  rw [Ideal.matmul_constant_zero_apply, ← Equiv.sum_comp (ValueIdx.contrEquiv1 dot_S64x28_S28x256_S64x256_1_0_0_1_n_n 28 rfl rfl).symm]
  refine Finset.sum_congr rfl fun k _ => ?_
  have hk := ValueIdx.contrEquiv1_symm_val dot_S64x28_S28x256_S64x256_1_0_0_1_n_n 28 rfl rfl k
  have el : dot_S64x28_S28x256_S64x256_1_0_0_1_n_n.lhsIdx (ix2 r d) ((ValueIdx.contrEquiv1 dot_S64x28_S28x256_S64x256_1_0_0_1_n_n 28 rfl rfl).symm k) = ix2 r k := funext fun a => Fin.ext (by
    match a with
    | ⟨0, _⟩ => exact lhs28_0 _ _
    | ⟨1, _⟩ => exact (lhs28_1 _ _).trans hk)
  have er : dot_S64x28_S28x256_S64x256_1_0_0_1_n_n.rhsIdx (ix2 r d) ((ValueIdx.contrEquiv1 dot_S64x28_S28x256_S64x256_1_0_0_1_n_n 28 rfl rfl).symm k) = ix2 k d := funext fun a => Fin.ext (by
    match a with
    | ⟨0, _⟩ => exact (rhs28_0 _ _).trans hk
    | ⟨1, _⟩ => exact rhs28_1 _ _)
  rw [el, er]

theorem lhs8_0 (i : S64x256.Idx) (q : dot_S64x8_S8x256_S64x256_1_0_0_1_n_n.contr.Idx) :
    (dot_S64x8_S8x256_S64x256_1_0_0_1_n_n.lhsIdx i q 0).val = (i 0).val := by
  unfold DotDims.lhsIdx
  rw [dif_neg (show ¬(0 : Fin S64x8.rank) ∈ dot_S64x8_S8x256_S64x256_1_0_0_1_n_n.lhsBatch by decide), dif_pos (show (0 : Fin S64x8.rank) ∈ dot_S64x8_S8x256_S64x256_1_0_0_1_n_n.lhsNonContracting by decide)]
  rfl
theorem lhs8_1 (i : S64x256.Idx) (q : dot_S64x8_S8x256_S64x256_1_0_0_1_n_n.contr.Idx) :
    (dot_S64x8_S8x256_S64x256_1_0_0_1_n_n.lhsIdx i q 1).val = (q ⟨0, by decide⟩).val :=
  dot_S64x8_S8x256_S64x256_1_0_0_1_n_n.lhsIdx_val_of_single rfl i q
theorem rhs8_0 (i : S64x256.Idx) (q : dot_S64x8_S8x256_S64x256_1_0_0_1_n_n.contr.Idx) :
    (dot_S64x8_S8x256_S64x256_1_0_0_1_n_n.rhsIdx i q 0).val = (q ⟨0, by decide⟩).val :=
  dot_S64x8_S8x256_S64x256_1_0_0_1_n_n.rhsIdx_val_of_single rfl i q
theorem rhs8_1 (i : S64x256.Idx) (q : dot_S64x8_S8x256_S64x256_1_0_0_1_n_n.contr.Idx) :
    (dot_S64x8_S8x256_S64x256_1_0_0_1_n_n.rhsIdx i q 1).val = (i 1).val := by
  unfold DotDims.rhsIdx
  rw [dif_neg (show ¬(1 : Fin S8x256.rank) ∈ dot_S64x8_S8x256_S64x256_1_0_0_1_n_n.rhsBatch by decide), dif_pos (show (1 : Fin S8x256.rank) ∈ dot_S64x8_S8x256_S64x256_1_0_0_1_n_n.rhsNonContracting by decide)]
  rfl

/-- The category one-hot times the table, at batch row `r` and coordinate `d`: the sum over the 8 table rows. -/
theorem matmul8_apply (L : FVec Ideal S64x8 .bf16) (R : FVec Ideal S8x256 .bf16) (r : Fin 64) (d : Fin 256) :
    matmul dot_S64x8_S8x256_S64x256_1_0_0_1_n_n none L R (constant (F := Ideal) S64x256 .f32 0x00000000#32) (ix2 r d)
      = ∑ k : Fin 8, L (ix2 r k) * R (ix2 k d) := by
  simp only [matmul]
  rw [Ideal.matmul_constant_zero_apply, ← Equiv.sum_comp (ValueIdx.contrEquiv1 dot_S64x8_S8x256_S64x256_1_0_0_1_n_n 8 rfl rfl).symm]
  refine Finset.sum_congr rfl fun k _ => ?_
  have hk := ValueIdx.contrEquiv1_symm_val dot_S64x8_S8x256_S64x256_1_0_0_1_n_n 8 rfl rfl k
  have el : dot_S64x8_S8x256_S64x256_1_0_0_1_n_n.lhsIdx (ix2 r d) ((ValueIdx.contrEquiv1 dot_S64x8_S8x256_S64x256_1_0_0_1_n_n 8 rfl rfl).symm k) = ix2 r k := funext fun a => Fin.ext (by
    match a with
    | ⟨0, _⟩ => exact lhs8_0 _ _
    | ⟨1, _⟩ => exact (lhs8_1 _ _).trans hk)
  have er : dot_S64x8_S8x256_S64x256_1_0_0_1_n_n.rhsIdx (ix2 r d) ((ValueIdx.contrEquiv1 dot_S64x8_S8x256_S64x256_1_0_0_1_n_n 8 rfl rfl).symm k) = ix2 k d := funext fun a => Fin.ext (by
    match a with
    | ⟨0, _⟩ => exact (rhs8_0 _ _).trans hk
    | ⟨1, _⟩ => exact rhs8_1 _ _)
  rw [el, er]

/-! ## Quantities laid over the block -/

/-- The flattened (batch row, square) axis unflattened: row `i · 64 + s` is batch row `i`, square `s`. -/
theorem unflatten_apply (X : FVec Ideal S4096x256 .f32) (i s : Fin 64) (d : Fin 256) :
    shapeCast S64x64x256 X shapeCasts_S4096x256_S64x64x256 (ix3 i s d)
      = X (ix2 (⟨i.val * 64 + s.val, by have := i.isLt; have := s.isLt; omega⟩ : Fin 4096) d) :=
  shapeCast_apply X shapeCasts_S4096x256_S64x64x256 (ix3 i s d) _ (by
    rw [Shape.rowMajor_val_two, Shape.rowMajor_val_three]
    show (i.val * 64 + s.val) * 256 + d.val = (i.val * 64 + s.val) * 256 + d.val
    rfl)

/-- A per-(batch row, square) quantity laid along the model axis. -/
theorem lay_square_entry (X : FVec Ideal S64x64 .f32) (i s : Fin 64) (d : Fin 256) :
    broadcastTo S64x64x256 (shapeCast S64x64x1 X shapeCasts_S64x64_S64x64x1) broadcasts_S64x64x1_S64x64x256 (ix3 i s d) = X (ix2 i s) :=
  (broadcastTo_apply _ broadcasts_S64x64x1_S64x64x256 (ix3 i s d) (ix3 i s (0 : Fin 1)) (fun a => match a with
    | ⟨0, _⟩ => by show i.val = if (64 : Nat) = 1 then 0 else i.val; rw [if_neg (by decide)]
    | ⟨1, _⟩ => by show s.val = if (64 : Nat) = 1 then 0 else s.val; rw [if_neg (by decide)]
    | ⟨2, _⟩ => by show (0 : Nat) = if (1 : Nat) = 1 then 0 else d.val; rw [if_pos rfl])).trans
  (shapeCast_apply X shapeCasts_S64x64_S64x64x1 (ix3 i s (0 : Fin 1)) (ix2 i s) (by
    rw [Shape.rowMajor_val_two, Shape.rowMajor_val_three]
    show i.val * 64 + s.val = (i.val * 64 + s.val) * 1 + 0
    omega))

/-- A per-coordinate quantity laid over batch rows and squares. -/
theorem lay_coord (X : FVec Ideal S256 .f32) (i s : Fin 64) (d : Fin 256) :
    broadcastTo S64x64x256 (shapeCast S1x1x256 X shapeCasts_S256_S1x1x256) broadcasts_S1x1x256_S64x64x256 (ix3 i s d) = X (ix1 d) :=
  (broadcastTo_apply _ broadcasts_S1x1x256_S64x64x256 (ix3 i s d) (ix3 (0 : Fin 1) (0 : Fin 1) d) (fun a => match a with
    | ⟨0, _⟩ => by show (0 : Nat) = if (1 : Nat) = 1 then 0 else i.val; rw [if_pos rfl]
    | ⟨1, _⟩ => by show (0 : Nat) = if (1 : Nat) = 1 then 0 else s.val; rw [if_pos rfl]
    | ⟨2, _⟩ => by show d.val = if (256 : Nat) = 1 then 0 else d.val; rw [if_neg (by decide)])).trans
  (shapeCast_apply X shapeCasts_S256_S1x1x256 (ix3 (0 : Fin 1) (0 : Fin 1) d) (ix1 d) (by
    rw [Shape.rowMajor_val_one, Shape.rowMajor_val_three]
    show d.val = (0 * 1 + 0) * 256 + d.val
    omega))

/-- A per-(batch row, coordinate) quantity laid over the squares. -/
theorem lay_row (X : FVec Ideal S64x256 .f32) (i s : Fin 64) (d : Fin 256) :
    broadcastTo S64x64x256 (shapeCast S64x1x256 X shapeCasts_S64x256_S64x1x256) broadcasts_S64x1x256_S64x64x256 (ix3 i s d) = X (ix2 i d) :=
  (broadcastTo_apply _ broadcasts_S64x1x256_S64x64x256 (ix3 i s d) (ix3 i (0 : Fin 1) d) (fun a => match a with
    | ⟨0, _⟩ => by show i.val = if (64 : Nat) = 1 then 0 else i.val; rw [if_neg (by decide)]
    | ⟨1, _⟩ => by show (0 : Nat) = if (1 : Nat) = 1 then 0 else s.val; rw [if_pos rfl]
    | ⟨2, _⟩ => by show d.val = if (256 : Nat) = 1 then 0 else d.val; rw [if_neg (by decide)])).trans
  (shapeCast_apply X shapeCasts_S64x256_S64x1x256 (ix3 i (0 : Fin 1) d) (ix2 i d) (by
    rw [Shape.rowMajor_val_two, Shape.rowMajor_val_three]
    show i.val * 256 + d.val = (i.val * 1 + 0) * 256 + d.val
    omega))

/-- A per-(square, coordinate) quantity laid over the batch rows. -/
theorem lay_square (X : Vec Ideal S64x256 .f32) (i s : Fin 64) (d : Fin 256) :
    broadcastTo S64x64x256 (shapeCast S1x64x256 X shapeCasts_S64x256_S1x64x256) broadcasts_S1x64x256_S64x64x256 (ix3 i s d) = X (ix2 s d) :=
  (broadcastTo_apply _ broadcasts_S1x64x256_S64x64x256 (ix3 i s d) (ix3 (0 : Fin 1) s d) (fun a => match a with
    | ⟨0, _⟩ => by show (0 : Nat) = if (1 : Nat) = 1 then 0 else i.val; rw [if_pos rfl]
    | ⟨1, _⟩ => by show s.val = if (64 : Nat) = 1 then 0 else s.val; rw [if_neg (by decide)]
    | ⟨2, _⟩ => by show d.val = if (256 : Nat) = 1 then 0 else d.val; rw [if_neg (by decide)])).trans
  (shapeCast_apply X shapeCasts_S64x256_S1x64x256 (ix3 (0 : Fin 1) s d) (ix2 s d) (by
    rw [Shape.rowMajor_val_two, Shape.rowMajor_val_three]
    show s.val * 256 + d.val = (0 * 64 + s.val) * 256 + d.val
    omega))

/-! ## The meta features side by side -/

/-- The four feature groups joined along the feature axis, at batch row `i` and feature `k`. -/
theorem meta_concat_apply (a b : Vec Ideal S64x8 .f32) (c : Vec Ideal S64x4 .f32) (e : Vec Ideal S64x8 .f32) (i : Fin 64) (k : Fin 28) :
    concatenate S64x28 1 [⟨S64x8, a⟩, ⟨S64x8, b⟩, ⟨S64x4, c⟩, ⟨S64x8, e⟩] concatenates_S64x8_S64x8_S64x4_S64x8_S64x28_d1 (ix2 i k)
      = metaRow (fun q => a (ix2 i q)) (fun q => b (ix2 i q)) (fun q => c (ix2 i q)) (fun q => e (ix2 i q)) k := by
  unfold metaRow
  split_ifs with h0 h1 h2
  · exact concatenate_apply_piece 1 [⟨S64x8, a⟩, ⟨S64x8, b⟩, ⟨S64x4, c⟩, ⟨S64x8, e⟩] concatenates_S64x8_S64x8_S64x4_S64x8_S64x28_d1 (ix2 i k) 0 (by show 0 < 4; omega) S64x8 a rfl rfl 0 rfl
      (ix2 i ⟨k.val, h0⟩) (fun q hq => match q with | ⟨0, _⟩ => rfl | ⟨1, _⟩ => absurd rfl hq) (by show 0 + k.val = k.val; omega)
  · exact concatenate_apply_piece 1 [⟨S64x8, a⟩, ⟨S64x8, b⟩, ⟨S64x4, c⟩, ⟨S64x8, e⟩] concatenates_S64x8_S64x8_S64x4_S64x8_S64x28_d1 (ix2 i k) 1 (by show 1 < 4; omega) S64x8 b rfl rfl 8 rfl
      (ix2 i ⟨k.val - 8, by omega⟩) (fun q hq => match q with | ⟨0, _⟩ => rfl | ⟨1, _⟩ => absurd rfl hq) (by show 8 + (k.val - 8) = k.val; omega)
  · exact concatenate_apply_piece 1 [⟨S64x8, a⟩, ⟨S64x8, b⟩, ⟨S64x4, c⟩, ⟨S64x8, e⟩] concatenates_S64x8_S64x8_S64x4_S64x8_S64x28_d1 (ix2 i k) 2 (by show 2 < 4; omega) S64x4 c rfl rfl 16 rfl
      (ix2 i ⟨k.val - 16, by omega⟩) (fun q hq => match q with | ⟨0, _⟩ => rfl | ⟨1, _⟩ => absurd rfl hq) (by show 16 + (k.val - 16) = k.val; omega)
  · exact concatenate_apply_piece 1 [⟨S64x8, a⟩, ⟨S64x8, b⟩, ⟨S64x4, c⟩, ⟨S64x8, e⟩] concatenates_S64x8_S64x8_S64x4_S64x8_S64x28_d1 (ix2 i k) 3 (by show 3 < 4; omega) S64x8 e rfl rfl 20 rfl
      (ix2 i ⟨k.val - 20, by have := k.isLt; omega⟩) (fun q hq => match q with | ⟨0, _⟩ => rfl | ⟨1, _⟩ => absurd rfl hq) (by show 20 + (k.val - 20) = k.val; omega)

/-! ## The category one-hot -/

/-- The row's category word against the table's row numbers, as a number: the one-hot entry. -/
theorem tc_hot_apply (v143 : Vec Ideal S64x1 .i32) (i : Fin 64) (j : Fin 8) :
    (sitofp .f32 (extui 32 (cmpi .eq
        (broadcastTo S64x8 (shapeCast S64x1 v143 shapeCasts_S64x1_S64x1) broadcasts_S64x1_S64x8)
        (broadcastTo S64x8 (iota .tc S1x8 32 [1] iota_S1x8_d1_w32) broadcasts_S1x8_S64x8)) natLt_1_32) : FVec Ideal S64x8 .f32) (ix2 i j)
      = hot (v143 (ix2 i (0 : Fin 1))) j.val := by
  have hA : (broadcastTo S64x8 (shapeCast S64x1 v143 shapeCasts_S64x1_S64x1) broadcasts_S64x1_S64x8) (ix2 i j) = v143 (ix2 i (0 : Fin 1)) := by
    rw [shapeCast_self]
    exact broadcastTo_apply v143 broadcasts_S64x1_S64x8 (ix2 i j) (ix2 i (0 : Fin 1)) (fun a => match a with
      | ⟨0, _⟩ => by show i.val = if (64 : Nat) = 1 then 0 else i.val; rw [if_neg (by decide)]
      | ⟨1, _⟩ => by show (0 : Nat) = if (1 : Nat) = 1 then 0 else j.val; rw [if_pos rfl])
  have hB : (broadcastTo S64x8 (iota .tc S1x8 32 [1] iota_S1x8_d1_w32) broadcasts_S1x8_S64x8) (ix2 i j) = BitVec.ofNat 32 j.val := by
    refine (broadcastTo_apply _ broadcasts_S1x8_S64x8 (ix2 i j) (ix2 (0 : Fin 1) j) (fun a => match a with
      | ⟨0, _⟩ => by show (0 : Nat) = if (1 : Nat) = 1 then 0 else i.val; rw [if_pos rfl]
      | ⟨1, _⟩ => by show j.val = if (8 : Nat) = 1 then 0 else j.val; rw [if_neg (by decide)])).trans ?_
    exact iota_single_apply .tc S1x8 32 1 iota_S1x8_d1_w32 (ix2 (0 : Fin 1) j)
  show FloatOps.sitofp .f32 ((IntOp.cmpi .eq _ _).setWidth 32) = _
  rw [hA, hB]
  exact sitofp_cmpi_eq _ _

/-! ## The body's pieces -/

/-- The weight's last row, taken out as a vector of the model axis. -/
theorem pay3_apply (x7 : Vec Ideal S105x256 .f32) (d : Fin 256) : k0_pay3 x7 (ix1 d) = x7 (ix2 epRow d) := by
  unfold k0_pay3
  refine (shapeCast_apply _ shapeCasts_S1x256_S256 (ix1 d) (ix2 (0 : Fin 1) d) (by
    rw [Shape.rowMajor_val_two, Shape.rowMajor_val_one]
    show 0 * 256 + d.val = d.val
    omega)).trans ?_
  exact extractStridedSlice_apply ![104, 0] x7 slices_S105x256_o104_0_S1x256 (ix2 (0 : Fin 1) d) (ix2 epRow d) (fun a => match a with
    | ⟨0, _⟩ => by show 104 = 104 + 0; rfl
    | ⟨1, _⟩ => by show d.val = 0 + d.val; omega)

/-- The board term as the body accumulates it: zero, then the eight history steps' products in turn. -/
def boardAcc (x7 : Vec Ideal S105x256 .f32) (x0 : IVec S64x8x64 32) : FVec Ideal S4096x256 .f32 :=
  addf (addf (addf (addf (addf (addf (addf (addf (broadcast S4096x256 (Scalar.ofBits .f32 0x00000000#32))
    (hotMM x0 (k0_pay2 x7) 0 0 slices_S64x8x64_o0_0_0_S64x1x64 slices_S105x256_o0_0_S13x256)) (hotMM x0 (k0_pay2 x7) 1 13 slices_S64x8x64_o0_1_0_S64x1x64 slices_S105x256_o13_0_S13x256)) (hotMM x0 (k0_pay2 x7) 2 26 slices_S64x8x64_o0_2_0_S64x1x64 slices_S105x256_o26_0_S13x256)) (hotMM x0 (k0_pay2 x7) 3 39 slices_S64x8x64_o0_3_0_S64x1x64 slices_S105x256_o39_0_S13x256)) (hotMM x0 (k0_pay2 x7) 4 52 slices_S64x8x64_o0_4_0_S64x1x64 slices_S105x256_o52_0_S13x256)) (hotMM x0 (k0_pay2 x7) 5 65 slices_S64x8x64_o0_5_0_S64x1x64 slices_S105x256_o65_0_S13x256)) (hotMM x0 (k0_pay2 x7) 6 78 slices_S64x8x64_o0_6_0_S64x1x64 slices_S105x256_o78_0_S13x256)) (hotMM x0 (k0_pay2 x7) 7 91 slices_S64x8x64_o0_7_0_S64x1x64 slices_S105x256_o91_0_S13x256)

/-- At flattened row `i · 64 + s`: the double sum over history step and piece class. The zero the accumulation
    starts from and its left-to-right grouping drop out (`0 + x = x`; a finite sum's terms one after another). -/
theorem boardAcc_apply (x7 : Vec Ideal S105x256 .f32) (x0 : IVec S64x8x64 32) (i s : Fin 64) (d : Fin 256) :
    boardAcc x7 x0 (ix2 (⟨i.val * 64 + s.val, by have := i.isLt; have := s.isLt; omega⟩ : Fin 4096) d)
      = ∑ h : Fin 8, ∑ p : Fin 13, hot (x0 (ix3 i h s)) p.val * x7 (ix2 (boardRow h p) d) := by
  unfold boardAcc
  show ((((((((Ideal.ofBits .f32 0x00000000#32 + _) + _) + _) + _) + _) + _) + _) + _) = _
  rw [hotMM_apply x0 (k0_pay2 x7) 0 0 (by decide) rfl, hotMM_apply x0 (k0_pay2 x7) 1 13 (by decide) rfl,
    hotMM_apply x0 (k0_pay2 x7) 2 26 (by decide) rfl, hotMM_apply x0 (k0_pay2 x7) 3 39 (by decide) rfl,
    hotMM_apply x0 (k0_pay2 x7) 4 52 (by decide) rfl, hotMM_apply x0 (k0_pay2 x7) 5 65 (by decide) rfl,
    hotMM_apply x0 (k0_pay2 x7) 6 78 (by decide) rfl, hotMM_apply x0 (k0_pay2 x7) 7 91 (by decide) rfl,
    Ideal.ofBits_zero_f32, zero_add, Fin.sum_univ_eight]
  rfl

/-- The body after the board term: en-passant, meta, embedding, scale and bias, over any board term. -/
def tail8 (acc : FVec Ideal S4096x256 .f32) (v3 : FVec Ideal S256 .f32) (v112 : Vec Ideal S64x64 .f32)
    (v119 v120 : Vec Ideal S64x8 .f32) (v121 : Vec Ideal S64x4 .f32) (v122 : Vec Ideal S64x8 .f32) (v125 : Vec Ideal S28x256 .f32)
    (v131 v135 v139 : Vec Ideal S64x256 .f32) : FVec Ideal S64x64x256 .f32 :=
  addf (mulf (addf (addf (addf (shapeCast S64x64x256 acc shapeCasts_S4096x256_S64x64x256)
      (mulf (broadcastTo S64x64x256 (shapeCast S64x64x1 v112 shapeCasts_S64x64_S64x64x1) broadcasts_S64x64x1_S64x64x256)
            (broadcastTo S64x64x256 (shapeCast S1x1x256 v3 shapeCasts_S256_S1x1x256) broadcasts_S1x1x256_S64x64x256)))
      (broadcastTo S64x64x256 (shapeCast S64x1x256
        (matmul dot_S64x28_S28x256_S64x256_1_0_0_1_n_n none
          (truncf .bf16 (concatenate S64x28 1 [⟨S64x8, v119⟩, ⟨S64x8, v120⟩, ⟨S64x4, v121⟩, ⟨S64x8, v122⟩] concatenates_S64x8_S64x8_S64x4_S64x8_S64x28_d1) bitsLt_bf16_f32)
          (truncf .bf16 v125 bitsLt_bf16_f32) (constant S64x256 .f32 0x00000000#32))
        shapeCasts_S64x256_S64x1x256) broadcasts_S64x1x256_S64x64x256))
      (broadcastTo S64x64x256 (shapeCast S1x64x256 v131 shapeCasts_S64x256_S1x64x256) broadcasts_S1x64x256_S64x64x256))
      (broadcastTo S64x64x256 (shapeCast S1x64x256 v135 shapeCasts_S64x256_S1x64x256) broadcasts_S1x64x256_S64x64x256))
    (broadcastTo S64x64x256 (shapeCast S1x64x256 v139 shapeCasts_S64x256_S1x64x256) broadcasts_S1x64x256_S64x64x256)

theorem tail8_apply (acc : FVec Ideal S4096x256 .f32) (v3 : FVec Ideal S256 .f32) (v112 : Vec Ideal S64x64 .f32)
    (v119 v120 : Vec Ideal S64x8 .f32) (v121 : Vec Ideal S64x4 .f32) (v122 : Vec Ideal S64x8 .f32) (v125 : Vec Ideal S28x256 .f32)
    (v131 v135 v139 : Vec Ideal S64x256 .f32) (i s : Fin 64) (d : Fin 256) :
    tail8 acc v3 v112 v119 v120 v121 v122 v125 v131 v135 v139 (ix3 i s d)
      = (((acc (ix2 (⟨i.val * 64 + s.val, by have := i.isLt; have := s.isLt; omega⟩ : Fin 4096) d) + v112 (ix2 i s) * v3 (ix1 d))
          + ∑ k : Fin 28, metaRow (fun q => v119 (ix2 i q)) (fun q => v120 (ix2 i q)) (fun q => v121 (ix2 i q)) (fun q => v122 (ix2 i q)) k * v125 (ix2 k d))
          + v131 (ix2 s d)) * v135 (ix2 s d) + v139 (ix2 s d) := by
  unfold tail8
  show (((_ + _ * _) + _) + _) * _ + _ = _
  rw [unflatten_apply, lay_square_entry, lay_coord, lay_row, lay_square v131, lay_square v135, lay_square v139, matmul28_apply]
  refine congrArg (fun z => (((acc _ + v112 (ix2 i s) * v3 (ix1 d)) + z) + v131 (ix2 s d)) * v135 (ix2 s d) + v139 (ix2 s d)) ?_
  refine Finset.sum_congr rfl fun k _ => ?_
  congr 1
  exact meta_concat_apply v119 v120 v121 v122 i k

/-- The body's piece after the board term IS `tail8` of the accumulated board term (its eight steps spread over three
    of the generated pieces) and the weight's last row. -/
theorem pay8_eq (x7 : Vec Ideal S105x256 .f32) (x0 : IVec S64x8x64 32) (x4 : Vec Ideal S64x64 .f32) (x1 x2 : Vec Ideal S64x8 .f32)
    (x3 : Vec Ideal S64x4 .f32) (x5 : Vec Ideal S64x8 .f32) (x8 : Vec Ideal S28x256 .f32) (x9 x10 x11 : Vec Ideal S64x256 .f32) :
    k0_pay8 (k0_pay2 x7) (k0_pay3 x7)
        (k0_pay6 (k0_pay2 x7) x0 (iota .tc S1x1x13 32 [2] iota_S1x1x13_d2_w32) (k0_pay4 x7 x0) (k0_pay5 (F := Ideal) x0))
        (k0_pay7 (F := Ideal) x0 (iota .tc S1x1x13 32 [2] iota_S1x1x13_d2_w32)) x4 x1 x2 x3 x5 x8 x9 x10 x11
      = tail8 (boardAcc x7 x0) (k0_pay3 x7) x4 x1 x2 x3 x5 x8 x9 x10 x11 := rfl

/-- The last piece at an index: what came before plus the category's one-hot sum over the table's rows. -/
theorem pay1_apply (v142 : FVec Ideal S64x64x256 .f32) (v143 : Vec Ideal S64x1 .i32) (v152 : Vec Ideal S8x256 .f32) (i s : Fin 64) (d : Fin 256) :
    k0_pay1 v142 v143 v152 (ix3 i s d) = v142 (ix3 i s d) + ∑ j : Fin 8, hot (v143 (ix2 i (0 : Fin 1))) j.val * v152 (ix2 j d) := by
  unfold k0_pay1
  show _ + _ = _
  rw [lay_row, matmul8_apply]
  refine congrArg (fun z => v142 (ix3 i s d) + z) (Finset.sum_congr rfl fun j _ => ?_)
  congr 1
  exact tc_hot_apply v143 i j

end Cert.Encoder.KernelSide

end
-- ==== Proof.Blocks.lean ====
/-
  From blocks to the array.

  The grid has 64 points; point `t` stages rows `64 t … 64 t + 63` of every batch-indexed array and the whole of every
  weight table, runs the body on those blocks, and writes the [64,64,256] result back as rows `64 t … 64 t + 63` of the
  output. The body's block is `cell` of its input blocks' row data (the pieces' readings chained), each input block's
  entry is its array's entry `64 t` rows further down, so what point `t` writes back is block `t` of `encArr` of the
  arrays; the 64 blocks tile the output (row `r` lies in block `r / 64`), so the output array ends as `encArr` of the
  arguments. The category array reaches the body reshaped to one column by the host; entry (b, 0) of that is entry b.
-/
import proofs.«425434_j35682588295306_2_alg».proof.Proof.Gen.KernelIdeal.Value
import proofs.«425434_j35682588295306_2_alg».proof.Proof.KPay
import Idealize.ShloMosaic.Lib.StableHlo.Run

set_option maxRecDepth 16384

noncomputable section

open scoped BigOperators

namespace Cert.Encoder

/-- `cell` at equal row data is equal. -/
theorem cell_congr {code code' : Fin 8 → BitVec 32} {epv epv' : EReal} {mrow mrow' : Fin 28 → EReal} {tcw tcw' : BitVec 32}
    {Wb Wb' : (⟨2, ![105, 256]⟩ : Idealize.ShloMosaic.Shape).Idx → EReal} {Wm Wm' : (⟨2, ![28, 256]⟩ : Idealize.ShloMosaic.Shape).Idx → EReal}
    {e e' sc sc' bi bi' : EReal} {tbl tbl' : (⟨2, ![8, 256]⟩ : Idealize.ShloMosaic.Shape).Idx → EReal} (d : Fin 256)
    (h1 : code = code') (h2 : epv = epv') (h3 : mrow = mrow') (h4 : tcw = tcw') (h5 : Wb = Wb') (h6 : Wm = Wm')
    (h7 : e = e') (h8 : sc = sc') (h9 : bi = bi') (h10 : tbl = tbl') :
    cell code epv mrow tcw Wb Wm e sc bi tbl d = cell code' epv' mrow' tcw' Wb' Wm' e' sc' bi' tbl' d := by
  subst h1 h2 h3 h4 h5 h6 h7 h8 h9 h10; rfl

/-- `metaRow` of equal pieces is equal. -/
theorem metaRow_congr {t t' r r' : Fin 8 → EReal} {c c' : Fin 4 → EReal} {s s' : Fin 8 → EReal}
    (h1 : t = t') (h2 : r = r') (h3 : c = c') (h4 : s = s') : metaRow t r c s = metaRow t' r' c' s' := by
  subst h1 h2 h3 h4; rfl

end Cert.Encoder

namespace Cert.Encoder.KernelSide

open Cert.KernelIdeal Cert.KernelIdeal.Gen Idealize.ShloMosaic Idealize.ShloMosaic.TcCoe Idealize.SL.Sem
open Idealize.ShloMosaic.ValueIdx Cert.Encoder
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's block from its thirteen input blocks, at (batch row, square, coordinate): `cell` of the row data. -/
theorem out_apply (x0 : Vec Ideal S64x8x64 .i32) (x1 x2 : Vec Ideal S64x8 .f32) (x3 : Vec Ideal S64x4 .f32) (x4 : Vec Ideal S64x64 .f32)
    (x5 : Vec Ideal S64x8 .f32) (x6 : Vec Ideal S64x1 .i32) (x7 : Vec Ideal S105x256 .f32) (x8 : Vec Ideal S28x256 .f32)
    (x9 x10 x11 : Vec Ideal S64x256 .f32) (x12 : Vec Ideal S8x256 .f32) (i s : Fin 64) (d : Fin 256) :
    out0_13 x0 x1 x2 x3 x4 x5 x6 x7 x8 x9 x10 x11 x12 (ix3 i s d)
      = cell (fun h => x0 (ix3 i h s)) (x4 (ix2 i s))
          (metaRow (fun q => x1 (ix2 i q)) (fun q => x2 (ix2 i q)) (fun q => x3 (ix2 i q)) (fun q => x5 (ix2 i q)))
          (x6 (ix2 i (0 : Fin 1))) x7 x8 (x9 (ix2 s d)) (x10 (ix2 s d)) (x11 (ix2 s d)) x12 d := by
  unfold out0_13
  rw [View.canon_unit_zero hz3]
  simp only [View.ld_unit_zero (S := S105x256) hz2, View.ld_unit_zero (S := S64x8x64) hz3, View.ld_unit_zero (S := S64x64) hz2,
    View.ld_unit_zero (S := S64x8) hz2, View.ld_unit_zero (S := S64x4) hz2, View.ld_unit_zero (S := S28x256) hz2,
    View.ld_unit_zero (S := S64x256) hz2, View.ld_unit_zero (S := S64x1) hz2, View.ld_unit_zero (S := S8x256) hz2]
  rw [pay1_apply, pay8_eq, tail8_apply, boardAcc_apply, pay3_apply]
  rfl

variable (m : (ℓ : Loc nD τ sig) → Buf (Elt Ideal) ℓ) (ρ : Dev nD → PrngReg)

/-- The printed index maps, decided over the 64 points: a batch-indexed window is at block `t` along the batch axis and
    block 0 elsewhere, a weight window at block 0 on both axes. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 3) = t.val
    ∧ win0_13.index t (1 : Fin 3) = 0
    ∧ win0_13.index t (2 : Fin 3) = 0 :=
  (by decide +kernel : ∀ t : Fin grid0.N, _)

/-- The board codes' block at point `t` is rows `64 t … 64 t + 63` of the codes. -/
theorem blk0_apply (c : Dev nD) (t : Fin cfg0.N) (i : Fin 64) (h : Fin 8) (s : Fin 64) (B : Fin 4096) (hB : B.val = t.val * 64 + i.val) :
    (iblk m c 0 t : Vec Ideal S64x8x64 .i32) (ix3 i h s) = (V m c main_arg0 : S4096x8x64.Idx → BitVec 32) (ix3 B h s) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg0 : S4096x8x64.Idx → BitVec 32) (funext fun a => Fin.ext ?_)
  match a with
  | ⟨0, _⟩ => show win0_0.index t (0 : Fin 3) * 64 + 1 * i.val = B.val; rw [f0_0, hB]; omega
  | ⟨1, _⟩ => show win0_0.index t (1 : Fin 3) * 8 + 1 * h.val = h.val; rw [f0_1]; omega
  | ⟨2, _⟩ => show win0_0.index t (2 : Fin 3) * 64 + 1 * s.val = s.val; rw [f0_2]; omega

/-- Window 1's block at point `t` is rows `64 t … 64 t + 63` of its array. -/
theorem blk1_apply (c : Dev nD) (t : Fin cfg0.N) (i : Fin 64) (q : Fin 8) (B : Fin 4096) (hB : B.val = t.val * 64 + i.val) :
    (iblk m c 1 t : Vec Ideal S64x8 .f32) (ix2 i q) = (V m c main_arg1 : S4096x8.Idx → EReal) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg1 : S4096x8.Idx → EReal) (funext fun a => Fin.ext ?_)
  match a with
  | ⟨0, _⟩ => show win0_1.index t (0 : Fin 2) * 64 + 1 * i.val = B.val; rw [f1_0, hB]; omega
  | ⟨1, _⟩ => show win0_1.index t (1 : Fin 2) * 8 + 1 * q.val = q.val; rw [f1_1]; omega

/-- Window 2's block at point `t` is rows `64 t … 64 t + 63` of its array. -/
theorem blk2_apply (c : Dev nD) (t : Fin cfg0.N) (i : Fin 64) (q : Fin 8) (B : Fin 4096) (hB : B.val = t.val * 64 + i.val) :
    (iblk m c 2 t : Vec Ideal S64x8 .f32) (ix2 i q) = (V m c main_arg2 : S4096x8.Idx → EReal) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg2 : S4096x8.Idx → EReal) (funext fun a => Fin.ext ?_)
  match a with
  | ⟨0, _⟩ => show win0_2.index t (0 : Fin 2) * 64 + 1 * i.val = B.val; rw [f2_0, hB]; omega
  | ⟨1, _⟩ => show win0_2.index t (1 : Fin 2) * 8 + 1 * q.val = q.val; rw [f2_1]; omega

/-- Window 3's block at point `t` is rows `64 t … 64 t + 63` of its array. -/
theorem blk3_apply (c : Dev nD) (t : Fin cfg0.N) (i : Fin 64) (q : Fin 4) (B : Fin 4096) (hB : B.val = t.val * 64 + i.val) :
    (iblk m c 3 t : Vec Ideal S64x4 .f32) (ix2 i q) = (V m c main_arg3 : S4096x4.Idx → EReal) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg3 : S4096x4.Idx → EReal) (funext fun a => Fin.ext ?_)
  match a with
  | ⟨0, _⟩ => show win0_3.index t (0 : Fin 2) * 64 + 1 * i.val = B.val; rw [f3_0, hB]; omega
  | ⟨1, _⟩ => show win0_3.index t (1 : Fin 2) * 4 + 1 * q.val = q.val; rw [f3_1]; omega

/-- Window 4's block at point `t` is rows `64 t … 64 t + 63` of its array. -/
theorem blk4_apply (c : Dev nD) (t : Fin cfg0.N) (i : Fin 64) (q : Fin 64) (B : Fin 4096) (hB : B.val = t.val * 64 + i.val) :
    (iblk m c 4 t : Vec Ideal S64x64 .f32) (ix2 i q) = (V m c main_arg4 : S4096x64.Idx → EReal) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg4 : S4096x64.Idx → EReal) (funext fun a => Fin.ext ?_)
  match a with
  | ⟨0, _⟩ => show win0_4.index t (0 : Fin 2) * 64 + 1 * i.val = B.val; rw [f4_0, hB]; omega
  | ⟨1, _⟩ => show win0_4.index t (1 : Fin 2) * 64 + 1 * q.val = q.val; rw [f4_1]; omega

/-- Window 5's block at point `t` is rows `64 t … 64 t + 63` of its array. -/
theorem blk5_apply (c : Dev nD) (t : Fin cfg0.N) (i : Fin 64) (q : Fin 8) (B : Fin 4096) (hB : B.val = t.val * 64 + i.val) :
    (iblk m c 5 t : Vec Ideal S64x8 .f32) (ix2 i q) = (V m c main_arg5 : S4096x8.Idx → EReal) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_arg5 : S4096x8.Idx → EReal) (funext fun a => Fin.ext ?_)
  match a with
  | ⟨0, _⟩ => show win0_5.index t (0 : Fin 2) * 64 + 1 * i.val = B.val; rw [f5_0, hB]; omega
  | ⟨1, _⟩ => show win0_5.index t (1 : Fin 2) * 8 + 1 * q.val = q.val; rw [f5_1]; omega

/-- Window 6's block at point `t` is rows `64 t … 64 t + 63` of its array. -/
theorem blk6_apply (c : Dev nD) (t : Fin cfg0.N) (i : Fin 64) (q : Fin 1) (B : Fin 4096) (hB : B.val = t.val * 64 + i.val) :
    (iblk m c 6 t : Vec Ideal S64x1 .i32) (ix2 i q) = (V m c main_v0 : S4096x1.Idx → BitVec 32) (ix2 B q) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  unfold iblk
  rw [View.read_apply]
  refine congrArg (V m c main_v0 : S4096x1.Idx → BitVec 32) (funext fun a => Fin.ext ?_)
  match a with
  | ⟨0, _⟩ => show win0_6.index t (0 : Fin 2) * 64 + 1 * i.val = B.val; rw [f6_0, hB]; omega
  | ⟨1, _⟩ => show win0_6.index t (1 : Fin 2) * 1 + 1 * q.val = q.val; rw [f6_1]; omega

/-- Window 7's block is its whole array at every point. -/
theorem blk7_eq (c : Dev nD) (t : Fin cfg0.N) :
    (iblk m c 7 t : Vec Ideal S105x256 .f32) = (V m c main_arg7 : S105x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg7 : S105x256.Idx → EReal) (funext fun a => Fin.ext ?_)
  match a with
  | ⟨0, _⟩ => show win0_7.index t (0 : Fin 2) * 105 + 1 * (y 0).val = (y 0).val; rw [f7_0]; omega
  | ⟨1, _⟩ => show win0_7.index t (1 : Fin 2) * 256 + 1 * (y 1).val = (y 1).val; rw [f7_1]; omega

/-- Window 8's block is its whole array at every point. -/
theorem blk8_eq (c : Dev nD) (t : Fin cfg0.N) :
    (iblk m c 8 t : Vec Ideal S28x256 .f32) = (V m c main_arg8 : S28x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg8 : S28x256.Idx → EReal) (funext fun a => Fin.ext ?_)
  match a with
  | ⟨0, _⟩ => show win0_8.index t (0 : Fin 2) * 28 + 1 * (y 0).val = (y 0).val; rw [f8_0]; omega
  | ⟨1, _⟩ => show win0_8.index t (1 : Fin 2) * 256 + 1 * (y 1).val = (y 1).val; rw [f8_1]; omega

/-- Window 9's block is its whole array at every point. -/
theorem blk9_eq (c : Dev nD) (t : Fin cfg0.N) :
    (iblk m c 9 t : Vec Ideal S64x256 .f32) = (V m c main_arg9 : S64x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg9 : S64x256.Idx → EReal) (funext fun a => Fin.ext ?_)
  match a with
  | ⟨0, _⟩ => show win0_9.index t (0 : Fin 2) * 64 + 1 * (y 0).val = (y 0).val; rw [f9_0]; omega
  | ⟨1, _⟩ => show win0_9.index t (1 : Fin 2) * 256 + 1 * (y 1).val = (y 1).val; rw [f9_1]; omega

/-- Window 10's block is its whole array at every point. -/
theorem blk10_eq (c : Dev nD) (t : Fin cfg0.N) :
    (iblk m c 10 t : Vec Ideal S64x256 .f32) = (V m c main_arg10 : S64x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg10 : S64x256.Idx → EReal) (funext fun a => Fin.ext ?_)
  match a with
  | ⟨0, _⟩ => show win0_10.index t (0 : Fin 2) * 64 + 1 * (y 0).val = (y 0).val; rw [f10_0]; omega
  | ⟨1, _⟩ => show win0_10.index t (1 : Fin 2) * 256 + 1 * (y 1).val = (y 1).val; rw [f10_1]; omega

/-- Window 11's block is its whole array at every point. -/
theorem blk11_eq (c : Dev nD) (t : Fin cfg0.N) :
    (iblk m c 11 t : Vec Ideal S64x256 .f32) = (V m c main_arg11 : S64x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg11 : S64x256.Idx → EReal) (funext fun a => Fin.ext ?_)
  match a with
  | ⟨0, _⟩ => show win0_11.index t (0 : Fin 2) * 64 + 1 * (y 0).val = (y 0).val; rw [f11_0]; omega
  | ⟨1, _⟩ => show win0_11.index t (1 : Fin 2) * 256 + 1 * (y 1).val = (y 1).val; rw [f11_1]; omega

/-- Window 12's block is its whole array at every point. -/
theorem blk12_eq (c : Dev nD) (t : Fin cfg0.N) :
    (iblk m c 12 t : Vec Ideal S8x256 .f32) = (V m c main_arg12 : S8x256.Idx → EReal) := by
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  funext y
  unfold iblk
  rw [View.read_apply]
  refine congrArg (V m c main_arg12 : S8x256.Idx → EReal) (funext fun a => Fin.ext ?_)
  match a with
  | ⟨0, _⟩ => show win0_12.index t (0 : Fin 2) * 8 + 1 * (y 0).val = (y 0).val; rw [f12_0]; omega
  | ⟨1, _⟩ => show win0_12.index t (1 : Fin 2) * 256 + 1 * (y 1).val = (y 1).val; rw [f12_1]; omega

/-- The host hands the body the category vector as one column: entry (b, 0) of the column is entry b of the vector. -/
theorem V_tc (c : Dev nD) (B : Fin 4096) :
    (V m c main_v0 : S4096x1.Idx → BitVec 32) (ix2 B (0 : Fin 1)) = (V m c main_arg6 : S4096.Idx → BitVec 32) (ix1 B) := by
  have e : (V m c main_v0 : S4096x1.Idx → BitVec 32)
      = shapeCast S4096x1 (m ((c : Thread nD τ).loc main_arg6) : S4096.Idx → BitVec 32) shapeCasts_S4096_S4096x1 := by
    dsimp only [V, hostOps0]; after_results; rfl
  rw [e, V_main_arg6]
  exact shapeCast_apply _ shapeCasts_S4096_S4096x1 (ix2 B (0 : Fin 1)) (ix1 B) (by
    rw [Shape.rowMajor_val_one, Shape.rowMajor_val_two]
    show B.val = B.val * 1 + 0
    omega)

/-- The encoder of the arrays as the region finds them. -/
abbrev encV (c : Dev nD) : S4096x64x256.Idx → EReal :=
  encArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)

/-- What point `t` writes back is block `t` of the encoder of the arrays. -/
theorem flushed_eq (c : Dev nD) (t : Fin cfg0.N) :
    (dats m 0 c).flushed 13 t = ((cfg0.win 13).blk t).view.read (Elt Ideal) (encV m c) := by
  rw [Cert.KernelIdeal.Value.flushed13]
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts t
  have ht : t.val < 64 := lt_of_lt_of_eq t.isLt N_0
  funext j
  have hj0 : (j 0).val < 64 := (j 0).isLt
  have hj1 : (j 1).val < 64 := (j 1).isLt
  have hj2 : (j 2).val < 256 := (j 2).isLt
  have hj : j = ix3 (⟨(j 0).val, hj0⟩ : Fin 64) (⟨(j 1).val, hj1⟩ : Fin 64) (⟨(j 2).val, hj2⟩ : Fin 256) :=
    funext fun a => match a with | ⟨0, _⟩ => rfl | ⟨1, _⟩ => rfl | ⟨2, _⟩ => rfl
  generalize (⟨(j 0).val, hj0⟩ : Fin 64) = i at hj
  generalize (⟨(j 1).val, hj1⟩ : Fin 64) = s at hj
  generalize (⟨(j 2).val, hj2⟩ : Fin 256) = d at hj
  subst hj
  have hB : (t.val * 64 + i.val) < 4096 := by have := i.isLt; omega
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 i s d) = encV m c (((cfg0.win 13).blk t).view.emb (ix3 i s d))
  have hemb : ((cfg0.win 13).blk t).view.emb (ix3 i s d) = (ix3 (⟨t.val * 64 + i.val, hB⟩ : Fin 4096) s d : S4096x64x256.Idx) :=
    funext fun a => Fin.ext (match a with
      | ⟨0, _⟩ => by show win0_13.index t (0 : Fin 3) * 64 + 1 * i.val = t.val * 64 + i.val; rw [f13_0]; omega
      | ⟨1, _⟩ => by show win0_13.index t (1 : Fin 3) * 64 + 1 * s.val = s.val; rw [f13_1]; omega
      | ⟨2, _⟩ => by show win0_13.index t (2 : Fin 3) * 256 + 1 * d.val = d.val; rw [f13_2]; omega)
  rw [hemb]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i s d).trans ?_
  show _ = encAt (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (⟨t.val * 64 + i.val, hB⟩ : Fin 4096) s d
  unfold encAt
  exact cell_congr d
    (funext fun h => blk0_apply m c t i h s ⟨t.val * 64 + i.val, hB⟩ rfl)
    (blk4_apply m c t i s ⟨t.val * 64 + i.val, hB⟩ rfl)
    (metaRow_congr (funext fun q => blk1_apply m c t i q ⟨t.val * 64 + i.val, hB⟩ rfl)
      (funext fun q => blk2_apply m c t i q ⟨t.val * 64 + i.val, hB⟩ rfl)
      (funext fun q => blk3_apply m c t i q ⟨t.val * 64 + i.val, hB⟩ rfl)
      (funext fun q => blk5_apply m c t i q ⟨t.val * 64 + i.val, hB⟩ rfl))
    ((blk6_apply m c t i (0 : Fin 1) ⟨t.val * 64 + i.val, hB⟩ rfl).trans (V_tc m c ⟨t.val * 64 + i.val, hB⟩))
    (blk7_eq m c t) (blk8_eq m c t)
    (congrFun (blk9_eq m c t) (ix2 s d)) (congrFun (blk10_eq m c t) (ix2 s d)) (congrFun (blk11_eq m c t) (ix2 s d))
    (blk12_eq m c t)

/-- An index of the output is in point `t`'s block iff each coordinate is in the block's range on its axis. -/
theorem mem_blk13 (t : Fin cfg0.N) (i : S4096x64x256.Idx) :
    i ∈ ((cfg0.win 13).blk t).view.set ↔ ∀ a : Fin 3, win0_13.index t a * S64x64x256.size a ≤ (i a).val ∧ (i a).val < win0_13.index t a * S64x64x256.size a + S64x64x256.size a := by
  show i ∈ ((View.whole main_v1).slice (win0_13.rect t)).set ↔ _
  rw [View.set_slice_whole, Rect.mem_set_unit]
  exact Iff.rfl

/-- Every index of the output lies in some point's block: row `r` in the block of point `r / 64`. -/
theorem cover (i : S4096x64x256.Idx) :
    ∃ t : Fin cfg0.N, (cfg0.win 13).flush t = true ∧ i ∈ ((cfg0.win 13).blk t).view.set := by
  have h0 : (i 0).val < 4096 := (i 0).isLt
  have h1 : (i 1).val < 64 := (i 1).isLt
  have h2 : (i 2).val < 256 := (i 2).isLt
  have hN : (i 0).val / 64 < cfg0.N := by show (i 0).val / 64 < grid0.N; rw [N_0]; omega
  obtain ⟨f0_0, f0_1, f0_2, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f13_2⟩ := idx_facts ⟨(i 0).val / 64, hN⟩
  refine ⟨⟨(i 0).val / 64, hN⟩, flush0_13 _, ?_⟩
  rw [mem_blk13]
  intro a
  match a with
  | ⟨0, _⟩ =>
    show win0_13.index ⟨(i 0).val / 64, hN⟩ (0 : Fin 3) * 64 ≤ (i 0).val ∧ (i 0).val < win0_13.index ⟨(i 0).val / 64, hN⟩ (0 : Fin 3) * 64 + 64
    rw [f13_0]; show (i 0).val / 64 * 64 ≤ (i 0).val ∧ (i 0).val < (i 0).val / 64 * 64 + 64; omega
  | ⟨1, _⟩ =>
    show win0_13.index ⟨(i 0).val / 64, hN⟩ (1 : Fin 3) * 64 ≤ (i 1).val ∧ (i 1).val < win0_13.index ⟨(i 0).val / 64, hN⟩ (1 : Fin 3) * 64 + 64
    rw [f13_1]; omega
  | ⟨2, _⟩ =>
    show win0_13.index ⟨(i 0).val / 64, hN⟩ (2 : Fin 3) * 256 ≤ (i 2).val ∧ (i 2).val < win0_13.index ⟨(i 0).val / 64, hN⟩ (2 : Fin 3) * 256 + 256
    rw [f13_2]; omega

/-- The output array after the run is the encoder of the argument arrays. -/
theorem final (c : Dev nD) :
    (dats m 0 c).arrAt 13 cfg0.N = encArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [(dats m 0 c).arrAt_eq_of_cover 13 (encV m c) (fun t _ => flushed_eq m c t) cover]
  show encArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) = _
  rw [V_main_arg0, V_main_arg1, V_main_arg2, V_main_arg3, V_main_arg4, V_main_arg5, V_main_arg6, V_main_arg7, V_main_arg8,
    V_main_arg9, V_main_arg10, V_main_arg11, V_main_arg12]

/-- The kernel's run: the result array at the encoder of the arguments, the arguments unchanged. -/
theorem run : θ_run defs (onTc (τ := τ) (main (F := Ideal))) ⟨m, fun _ => 0, ρ⟩ fun r => ∀ c : Dev nD,
      r.2.mem ((c : Thread nD τ).loc main_v1) = encArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.Encoder.KernelSide

end
-- ==== Proof.Range.lean ====
/-
  The category's range, read out of the precondition.

  The precondition's last conjunct says every entry of the category vector is at least 0 and below 8, as signed words.
  It is the outermost `and` of the printed predicate, so nothing of the finiteness conjuncts is opened: split the last
  `and`, read the all-reduction at one entry, split that entry's `and`, and read the two signed compares against the
  constants 0 and 8. A signed word between 0 and 8 is the natural number below 8 it also is unsigned.
-/
import proofs.«425434_j35682588295306_2_alg».proof.Pre_finite_inputs
import proofs.«425434_j35682588295306_2_alg».proof.Proof.Gen.Pre_finite_inputs
import Idealize.ShloMosaic.Lib.ReduceAll
import Idealize.ShloMosaic.Lib.ValueIdx

noncomputable section

namespace Cert.Encoder

open Idealize.ShloMosaic Idealize.ShloMosaic.ValueIdx Cert.Pre_finite_inputs

instance : Subsingleton S_.Idx := ⟨fun a b => funext fun d => d.elim0⟩

/-- Under the precondition every category word is, signed, at least 0 and below 8. -/
theorem tc_range {F : FTy → Type} [FloatOps F] [Cert.Pre_finite_inputs.Facts]
    (a0 : IVec S4096x8x64 32) (a1 a2 : FVec F S4096x8 .f32) (a3 : FVec F S4096x4 .f32) (a4 : FVec F S4096x64 .f32)
    (a5 : FVec F S4096x8 .f32) (a6 : IVec S4096 32) (a7 : FVec F S105x256 .f32) (a8 : FVec F S28x256 .f32)
    (a9 a10 a11 : FVec F S64x256 .f32) (a12 : FVec F S8x256 .f32)
    (h : Cert.Pre_finite_inputs.fn (F := F) a0 a1 a2 a3 a4 a5 a6 a7 a8 a9 a10 a11 a12 = fun _ => 1#1) (b : Fin 4096) :
    0 ≤ (a6 (ix1 b)).toInt ∧ (a6 (ix1 b)).toInt < 8 := by
  have h0 : Cert.Pre_finite_inputs.fn (F := F) a0 a1 a2 a3 a4 a5 a6 a7 a8 a9 a10 a11 a12 ix0 = 1#1 := congrFun h ix0
  unfold Cert.Pre_finite_inputs.fn at h0
  dsimp only at h0
  unfold Cert.Pre_finite_inputs.fn_part1 at h0
  dsimp only at h0
  unfold Cert.Pre_finite_inputs.fn_part2 at h0
  dsimp only at h0
  unfold Cert.Pre_finite_inputs.fn_part3 at h0
  dsimp only at h0
  change IntOp.andi _ _ = 1#1 at h0
  have h1 := (IntOp.andi_eq_one.mp h0).2
  have h2 := Host.reduce_andi_all _ _ _ _ ix0 h1 (ix1 b)
  change IntOp.andi (IntOp.cmpi .sge (a6 (ix1 b)) 0#32) (IntOp.cmpi .slt (a6 (ix1 b)) 8#32) = 1#1 at h2
  obtain ⟨hge, hlt⟩ := IntOp.andi_eq_one.mp h2
  have hge' := IntOp.cmpi_sge.mp hge
  have hlt' := IntOp.cmpi_slt.mp hlt
  have e0 : (0#32 : BitVec 32).toInt = 0 := by decide
  have e8 : (8#32 : BitVec 32).toInt = 8 := by decide
  rw [e0] at hge'
  rw [e8] at hlt'
  exact ⟨hge', hlt'⟩

/-- A word that is, signed, at least 0 and below 8 is below 8 unsigned, and its signed and unsigned values agree. -/
theorem toNat_of_range (w : BitVec 32) (h : 0 ≤ w.toInt ∧ w.toInt < 8) : w.toNat < 8 ∧ w.toInt = w.toNat := by
  have hw := w.isLt
  rw [BitVec.toInt_eq_toNat_cond] at h
  rw [BitVec.toInt_eq_toNat_cond]
  split_ifs at h ⊢ with hc
  · exact ⟨by omega, rfl⟩
  · omega

end Cert.Encoder

end
-- ==== Proof.RefGather.lean ====
/-
  The table lookup read at an index.

  The reference takes rows of the [8,256] table at the [4096,1] array of start indices. At batch row `b` and
  coordinate `d` it reads the table at row `min n 7`, where `n` is the start index of row `b` read as a signed
  number and made non-negative, and at column `d`: the row axis is the one the start index addresses (it is collapsed
  out of the result, with a slice of one row), the column axis is carried whole as the result's second axis.
-/
import proofs.«425434_j35682588295306_2_alg».proof.Proof.Gen.ReferenceIdeal
import Idealize.ShloMosaic.Lib.ValueIdx

noncomputable section

namespace Cert.Encoder.RefSide

open Cert.ReferenceIdeal Cert.ReferenceIdeal.Gen Idealize.ShloMosaic Idealize.ShloMosaic.ValueIdx

theorem gather_row_apply {α : Type} (x : S8x256.Idx → α) (idx : IVec S4096x1 32) (b : Fin 4096) (d : Fin 256) :
    Host.gather gather_S8x256_S4096x1_S4096x256_1_0_n_n_0_1_1256 x idx (ix2 b d)
      = x (ix2 (⟨min (idx (ix2 b (0 : Fin 1))).toInt.toNat 7, by omega⟩ : Fin 8) d) := by
  unfold Host.gather
  congr 1
  funext a
  refine Fin.ext ?_
  match a with
  | ⟨0, _⟩ =>
    show gather_S8x256_S4096x1_S4096x256_1_0_n_n_0_1_1256.start (ix2 b d) idx 0 + gather_S8x256_S4096x1_S4096x256_1_0_n_n_0_1_1256.batchCoord (ix2 b d) 0 + gather_S8x256_S4096x1_S4096x256_1_0_n_n_0_1_1256.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x256.rank) ∈ gather_S8x256_S4096x1_S4096x256_1_0_n_n_0_1_1256.startIndexMap from List.mem_singleton.mpr rfl)]
    have hsi : gather_S8x256_S4096x1_S4096x256_1_0_n_n_0_1_1256.siIdx (ix2 b d) ⟨List.idxOf (0 : Fin S8x256.rank) gather_S8x256_S4096x1_S4096x256_1_0_n_n_0_1_1256.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S8x256_S4096x1_S4096x256_1_0_n_n_0_1_1256.start (ix2 b d) idx 1 + gather_S8x256_S4096x1_S4096x256_1_0_n_n_0_1_1256.batchCoord (ix2 b d) 1 + gather_S8x256_S4096x1_S4096x256_1_0_n_n_0_1_1256.offCoord (ix2 b d) 1 = d.val
    rw [GatherDims.batchCoord_eq_zero _ _ _ List.not_mem_nil]
    unfold GatherDims.start
    rw [dif_neg (show ¬ (1 : Fin S8x256.rank) ∈ gather_S8x256_S4096x1_S4096x256_1_0_n_n_0_1_1256.startIndexMap by decide)]
    unfold GatherDims.offCoord
    rw [dif_pos (show (1 : Fin S8x256.rank) ∈ gather_S8x256_S4096x1_S4096x256_1_0_n_n_0_1_1256.sKept by decide)]
    have key : gather_S8x256_S4096x1_S4096x256_1_0_n_n_0_1_1256.offsetDims[List.idxOf (1 : Fin S8x256.rank) gather_S8x256_S4096x1_S4096x256_1_0_n_n_0_1_1256.sKept]'(by decide) = (1 : Fin S4096x256.rank) := by decide
    simp only [Nat.zero_add]
    exact congrArg (fun q => ((ix2 b d : S4096x256.Idx) q).val) key

end Cert.Encoder.RefSide

end
-- ==== Proof.RefSide.lean ====
/-
  The reference's result, element by element, is the encoder.

  The reference builds a [4096,64,105] array whose first 104 entries along the last axis are the one-hot encodings of the
  eight history boards (entry 13 h + p is [code(b,h,s) = p]: a one-hot of 13 classes per step, the steps moved next to the
  classes by a transpose and flattened with them) and whose last entry is the en-passant flag, and contracts it with the
  board weight; splitting that contraction's sum at the last row gives the encoder's board term and en-passant term. The
  meta features are joined and contracted with the meta weight as in the encoder. The table row is taken at the category
  after the index wrap (which leaves a non-negative word alone) and the lookup's clamp (which leaves an index below 8
  alone); a one-hot sum over the eight rows selects the same row.
-/
import proofs.«425434_j35682588295306_2_alg».proof.Proof.Gen.ReferenceIdeal.Read
import proofs.«425434_j35682588295306_2_alg».proof.Proof.Spec
import proofs.«425434_j35682588295306_2_alg».proof.Proof.Range
import proofs.«425434_j35682588295306_2_alg».proof.Proof.RefGather
import Idealize.ShloMosaic.Lib.Pipeline.Value

noncomputable section

open scoped BigOperators

namespace Cert.Encoder.RefSide

open Cert.ReferenceIdeal Cert.ReferenceIdeal.Gen Cert.ReferenceIdeal.Read Idealize.ShloMosaic Idealize.ShloMosaic.ValueIdx Cert.Encoder

/-- Entry `13 h + p` of the flattened one-hot array at (batch row, square) is the one-hot entry of class `p` for the
    square's code at history step `h`. -/
theorem board_entry (x0 : IVec S4096x8x64 32) (b : Fin 4096) (s : Fin 64) (h : Fin 8) (p : Fin 13) :
    val_main_v2 (F := Ideal) x0 (ix3 b s (⟨13 * h.val + p.val, by have := h.isLt; have := p.isLt; omega⟩ : Fin 104))
      = hot (x0 (ix3 b h s)) p.val := by
  have hb := b.isLt; have hs := s.isLt; have hh := h.isLt; have hp := p.isLt
  rw [val_main_v2_apply, val_main_v1_apply, val_main_v0_apply, val_main_call0_v4_apply, val_main_call0_v2_apply,
    val_main_call0_v0_apply, val_main_call0_v3_apply, val_main_call0_v1_apply]
  have e1 : idx_main_call0_v0 (idx_main_call0_v2 (idx_main_v1 (idx_main_v2
      (ix3 b s (⟨13 * h.val + p.val, by omega⟩ : Fin 104))))) = ix3 b h s :=
    funext fun a => Fin.ext (match a with
      | ⟨0, _⟩ => by show ((b.val * 64 + s.val) * 104 + (13 * h.val + p.val)) / 6656 = b.val; omega
      | ⟨1, _⟩ => by show ((b.val * 64 + s.val) * 104 + (13 * h.val + p.val)) / 13 % 8 = h.val; omega
      | ⟨2, _⟩ => by show ((b.val * 64 + s.val) * 104 + (13 * h.val + p.val)) / 104 % 64 = s.val; omega)
  have e2 : ((idx_main_call0_v3 (idx_main_v1 (idx_main_v2 (ix3 b s (⟨13 * h.val + p.val, by omega⟩ : Fin 104)))) 3).val) = p.val := by
    show ((b.val * 64 + s.val) * 104 + (13 * h.val + p.val)) % 13 = p.val
    omega
  rw [e1, e2]
  exact uitofp_cmpi_eq _ _

/-- The contracted array at a board row is the one-hot entry … -/
theorem v4_board (x0 : IVec S4096x8x64 32) (x4 : FVec Ideal S4096x64 .f32) (b : Fin 4096) (s : Fin 64) (h : Fin 8) (p : Fin 13) :
    val_main_v4 (F := Ideal) x0 x4 (ix3 b s (boardRow h p)) = hot (x0 (ix3 b h s)) p.val := by
  unfold val_main_v4
  refine (concatenate_pair_apply_left 2 _ _ concatenates_S4096x64x104_S4096x64x1_S4096x64x105_d2 (ix3 b s (boardRow h p)) rfl
    (ix3 b s (⟨13 * h.val + p.val, by have := h.isLt; have := p.isLt; omega⟩ : Fin 104))
    (fun a => match a with | ⟨0, _⟩ => rfl | ⟨1, _⟩ => rfl | ⟨2, _⟩ => rfl)).trans ?_
  exact board_entry x0 b s h p

/-- … and at the last row the en-passant flag. -/
theorem v4_ep (x0 : IVec S4096x8x64 32) (x4 : FVec Ideal S4096x64 .f32) (b : Fin 4096) (s : Fin 64) :
    val_main_v4 (F := Ideal) x0 x4 (ix3 b s epRow) = x4 (ix2 b s) := by
  unfold val_main_v4
  refine (concatenate_pair_apply_right 2 _ _ concatenates_S4096x64x104_S4096x64x1_S4096x64x105_d2 (ix3 b s epRow) rfl rfl (ix3 b s (0 : Fin 1))
    (fun a ha => match a with | ⟨0, _⟩ => rfl | ⟨1, _⟩ => rfl | ⟨2, _⟩ => absurd rfl ha)
    (by show 0 + 104 = 104; rfl)).trans ?_
  rw [val_main_v3_apply]
  exact congrArg x4 (funext fun a => match a with | ⟨0, _⟩ => rfl | ⟨1, _⟩ => rfl)

/-- The four feature groups joined along the feature axis, at batch row `i` and feature `k`. -/
theorem meta_apply (a b : FVec Ideal S4096x8 .f32) (c : FVec Ideal S4096x4 .f32) (e : FVec Ideal S4096x8 .f32) (i : Fin 4096) (k : Fin 28) :
    val_main_v5 (F := Ideal) a b c e (ix2 i k)
      = metaRow (fun q => a (ix2 i q)) (fun q => b (ix2 i q)) (fun q => c (ix2 i q)) (fun q => e (ix2 i q)) k := by
  unfold val_main_v5 metaRow
  split_ifs with h0 h1 h2
  · exact concatenate_apply_piece 1 [⟨S4096x8, a⟩, ⟨S4096x8, b⟩, ⟨S4096x4, c⟩, ⟨S4096x8, e⟩] concatenates_S4096x8_S4096x8_S4096x4_S4096x8_S4096x28_d1 (ix2 i k) 0 (by show 0 < 4; omega) S4096x8 a rfl rfl 0 rfl
      (ix2 i ⟨k.val, h0⟩) (fun q hq => match q with | ⟨0, _⟩ => rfl | ⟨1, _⟩ => absurd rfl hq) (by show 0 + k.val = k.val; omega)
  · exact concatenate_apply_piece 1 [⟨S4096x8, a⟩, ⟨S4096x8, b⟩, ⟨S4096x4, c⟩, ⟨S4096x8, e⟩] concatenates_S4096x8_S4096x8_S4096x4_S4096x8_S4096x28_d1 (ix2 i k) 1 (by show 1 < 4; omega) S4096x8 b rfl rfl 8 rfl
      (ix2 i ⟨k.val - 8, by omega⟩) (fun q hq => match q with | ⟨0, _⟩ => rfl | ⟨1, _⟩ => absurd rfl hq) (by show 8 + (k.val - 8) = k.val; omega)
  · exact concatenate_apply_piece 1 [⟨S4096x8, a⟩, ⟨S4096x8, b⟩, ⟨S4096x4, c⟩, ⟨S4096x8, e⟩] concatenates_S4096x8_S4096x8_S4096x4_S4096x8_S4096x28_d1 (ix2 i k) 2 (by show 2 < 4; omega) S4096x4 c rfl rfl 16 rfl
      (ix2 i ⟨k.val - 16, by omega⟩) (fun q hq => match q with | ⟨0, _⟩ => rfl | ⟨1, _⟩ => absurd rfl hq) (by show 16 + (k.val - 16) = k.val; omega)
  · exact concatenate_apply_piece 1 [⟨S4096x8, a⟩, ⟨S4096x8, b⟩, ⟨S4096x4, c⟩, ⟨S4096x8, e⟩] concatenates_S4096x8_S4096x8_S4096x4_S4096x8_S4096x28_d1 (ix2 i k) 3 (by show 3 < 4; omega) S4096x8 e rfl rfl 20 rfl
      (ix2 i ⟨k.val - 20, by have := k.isLt; omega⟩) (fun q hq => match q with | ⟨0, _⟩ => rfl | ⟨1, _⟩ => absurd rfl hq) (by show 20 + (k.val - 20) = k.val; omega)

/-- The looked-up table row, for a category in range, is the one-hot sum over the table's rows. -/
theorem tc_term (x6 : IVec S4096 32) (x12 : FVec Ideal S8x256 .f32) (b : Fin 4096) (d : Fin 256)
    (hr : 0 ≤ (x6 (ix1 b)).toInt ∧ (x6 (ix1 b)).toInt < 8) :
    val_main_v26 (F := Ideal) x6 x12 (ix2 b d) = ∑ j : Fin 8, hot (x6 (ix1 b)) j.val * x12 (ix2 j d) := by
  obtain ⟨hlt, heq⟩ := toNat_of_range _ hr
  rw [sum_hot (x6 (ix1 b)) hlt (fun j => x12 (ix2 j d))]
  have hsel : val_main_v25 (F := Ideal) x6 (ix2 b (0 : Fin 1)) = x6 (ix1 b) := by
    rw [val_main_v25_apply, val_main_v24_apply, val_main_v21_apply, val_main_v20_apply, val_main_c_apply]
    have hJ : idx_main_v25 (ix2 b (0 : Fin 1)) = ix1 b := funext fun a => match a with | ⟨0, _⟩ => rfl
    rw [hJ]
    have hc : IntOp.cmpi .slt (x6 (ix1 b)) 0#32 = 0#1 := eq_zero_of_ne_one (fun h1 => by
      have h2 := IntOp.cmpi_slt.mp h1
      rw [show (0#32 : BitVec 32).toInt = 0 from by decide] at h2
      omega)
    rw [hc, select_zero]
  unfold val_main_v26
  rw [gather_row_apply]
  refine congrArg x12 (funext fun a => Fin.ext ?_)
  match a with
  | ⟨0, _⟩ =>
    show min (val_main_v25 (F := Ideal) x6 (ix2 b (0 : Fin 1))).toInt.toNat 7 = (x6 (ix1 b)).toNat
    rw [hsel, heq]; omega
  | ⟨1, _⟩ => rfl

/-- The reference's result at (batch row, square, coordinate), for categories in range. -/
theorem ref_apply (x0 : IVec S4096x8x64 32) (x1 x2 : FVec Ideal S4096x8 .f32) (x3 : FVec Ideal S4096x4 .f32) (x4 : FVec Ideal S4096x64 .f32)
    (x5 : FVec Ideal S4096x8 .f32) (x6 : IVec S4096 32) (x7 : FVec Ideal S105x256 .f32) (x8 : FVec Ideal S28x256 .f32)
    (x9 x10 x11 : FVec Ideal S64x256 .f32) (x12 : FVec Ideal S8x256 .f32)
    (hr : ∀ b : Fin 4096, 0 ≤ (x6 (ix1 b)).toInt ∧ (x6 (ix1 b)).toInt < 8) (b : Fin 4096) (s : Fin 64) (d : Fin 256) :
    val_main_v29 (F := Ideal) x0 x1 x2 x3 x4 x5 x6 x7 x8 x9 x10 x11 x12 (ix3 b s d)
      = encAt x0 x1 x2 x3 x4 x5 x6 x7 x8 x9 x10 x11 x12 b s d := by
  have l7 : ∀ k : Fin 105, lidx_main_v7 (ix3 b s d) k = ix3 b s k :=
    fun k => funext fun a => match a with | ⟨0, _⟩ => rfl | ⟨1, _⟩ => rfl | ⟨2, _⟩ => rfl
  have r7 : ∀ k : Fin 105, ridx_main_v7 (ix3 b s d) k = ix2 k d :=
    fun k => funext fun a => match a with | ⟨0, _⟩ => rfl | ⟨1, _⟩ => rfl
  have i89 : idx_main_v8 (idx_main_v9 (ix3 b s d)) = ix2 b d :=
    funext fun a => match a with | ⟨0, _⟩ => rfl | ⟨1, _⟩ => rfl
  have l6 : ∀ k : Fin 28, lidx_main_v6 (ix2 b d) k = ix2 b k :=
    fun k => funext fun a => match a with | ⟨0, _⟩ => rfl | ⟨1, _⟩ => rfl
  have r6 : ∀ k : Fin 28, ridx_main_v6 (ix2 b d) k = ix2 k d :=
    fun k => funext fun a => match a with | ⟨0, _⟩ => rfl | ⟨1, _⟩ => rfl
  have i12 : idx_main_v11 (idx_main_v12 (ix3 b s d)) = ix2 s d :=
    funext fun a => match a with | ⟨0, _⟩ => rfl | ⟨1, _⟩ => rfl
  have i15 : idx_main_v14 (idx_main_v15 (ix3 b s d)) = ix2 s d :=
    funext fun a => match a with | ⟨0, _⟩ => rfl | ⟨1, _⟩ => rfl
  have i18 : idx_main_v17 (idx_main_v18 (ix3 b s d)) = ix2 s d :=
    funext fun a => match a with | ⟨0, _⟩ => rfl | ⟨1, _⟩ => rfl
  have i28 : idx_main_v27 (idx_main_v28 (ix3 b s d)) = ix2 b d :=
    funext fun a => match a with | ⟨0, _⟩ => rfl | ⟨1, _⟩ => rfl
  rw [val_main_v29_apply, val_main_v19_apply, val_main_v16_apply, val_main_v13_apply, val_main_v10_apply,
    val_main_v7_apply, val_main_v9_apply, val_main_v8_apply, i89, val_main_v6_apply,
    val_main_v12_apply, val_main_v11_apply, i12, val_main_v15_apply, val_main_v14_apply, i15,
    val_main_v18_apply, val_main_v17_apply, i18, val_main_v28_apply, val_main_v27_apply, i28,
    tc_term x6 x12 b d (hr b)]
  simp only [l7, r7, l6, r6]
  rw [sum_board_split (fun k => val_main_v4 (F := Ideal) x0 x4 (ix3 b s k) * x7 (ix2 k d))]
  simp only [v4_board, v4_ep, meta_apply]
  rfl

/-- The reference's whole result array is the encoder of its arguments, for categories in range. -/
theorem ref_eq (x0 : IVec S4096x8x64 32) (x1 x2 : FVec Ideal S4096x8 .f32) (x3 : FVec Ideal S4096x4 .f32) (x4 : FVec Ideal S4096x64 .f32)
    (x5 : FVec Ideal S4096x8 .f32) (x6 : IVec S4096 32) (x7 : FVec Ideal S105x256 .f32) (x8 : FVec Ideal S28x256 .f32)
    (x9 x10 x11 : FVec Ideal S64x256 .f32) (x12 : FVec Ideal S8x256 .f32)
    (hr : ∀ b : Fin 4096, 0 ≤ (x6 (ix1 b)).toInt ∧ (x6 (ix1 b)).toInt < 8) :
    val_main_v29 (F := Ideal) x0 x1 x2 x3 x4 x5 x6 x7 x8 x9 x10 x11 x12 = encArr x0 x1 x2 x3 x4 x5 x6 x7 x8 x9 x10 x11 x12 := by
  funext j
  have hj : j = ix3 (⟨(j 0).val, (j 0).isLt⟩ : Fin 4096) (⟨(j 1).val, (j 1).isLt⟩ : Fin 64) (⟨(j 2).val, (j 2).isLt⟩ : Fin 256) :=
    funext fun a => match a with | ⟨0, _⟩ => rfl | ⟨1, _⟩ => rfl | ⟨2, _⟩ => rfl
  rw [hj, ref_apply x0 x1 x2 x3 x4 x5 x6 x7 x8 x9 x10 x11 x12 hr]
  rfl

end Cert.Encoder.RefSide

end
-- ==== Proof.lean ====
/-
  A per-square input encoder: the kernel agrees with its reference over the extended reals, for categories in range.

  For batch row b, board square s and model coordinate d both programs compute

    (((Σ_h Σ_p [code(b,h,s) = p] · Wb(13 h + p, d) + ep(b,s) · Wb(104, d)) + Σ_k meta(b,k) · Wm(k, d)) + emb(s,d)) · scale(s,d)
      + bias(s,d) + tbl(tc(b), d)

  (Proof/Spec.lean). The kernel forms the board term as eight one-hot products accumulated from zero, one per history
  step, adds the en-passant flag times the weight's last row, and adds the table row as a one-hot product over the table's
  eight rows; the reference contracts one 105-wide array holding all eight one-hot encodings and the flag, and looks the
  table row up. The two board terms are one finite sum grouped two ways. The two table terms agree exactly when the
  category is one of the table's eight rows: outside that range the one-hot product is zero while the lookup still returns
  a row, which is why the precondition asks 0 ≤ tc < 8. Nothing else of the precondition is used: every step is a
  regrouping of a finite sum, `0 · x = 0`, `1 · x = x` or `0 + x = x`, all of which hold at the infinities.

  The kernel's side: Proof/KHot.lean (one history step's one-hot block and its product), Proof/KPay.lean (the rest of the
  body at an index), Proof/Blocks.lean (from the 64 row blocks to the array). The reference's side: Proof/RefGather.lean
  (the lookup at an index), Proof/RefSide.lean (its stages chained). Proof/Range.lean reads the category's range out of
  the precondition. Here the three frames, the idealization (the ideal pass rewrote nothing) and the agreement are put
  together behind the witnesses of the programs' stated facts.
-/
import proofs.«425434_j35682588295306_2_alg».proof.Defs
import proofs.«425434_j35682588295306_2_alg».proof.Proof.Gen.Kernel
import proofs.«425434_j35682588295306_2_alg».proof.Proof.Gen.Kernel.Skeleton
import proofs.«425434_j35682588295306_2_alg».proof.Proof.Gen.Kernel.Launch
import proofs.«425434_j35682588295306_2_alg».proof.Proof.Gen.Kernel.Points
import proofs.«425434_j35682588295306_2_alg».proof.Proof.Gen.Kernel.Frame
import proofs.«425434_j35682588295306_2_alg».proof.Proof.Gen.KernelIdeal
import proofs.«425434_j35682588295306_2_alg».proof.Proof.Gen.KernelIdeal.Skeleton
import proofs.«425434_j35682588295306_2_alg».proof.Proof.Gen.KernelIdeal.Launch
import proofs.«425434_j35682588295306_2_alg».proof.Proof.Gen.KernelIdeal.Points
import proofs.«425434_j35682588295306_2_alg».proof.Proof.Gen.KernelIdeal.Frame
import proofs.«425434_j35682588295306_2_alg».proof.Proof.Gen.ReferenceIdeal
import proofs.«425434_j35682588295306_2_alg».proof.Proof.Gen.Pre_finite_inputs
import proofs.«425434_j35682588295306_2_alg».proof.Proof.Gen.KernelIdeal.Value
import proofs.«425434_j35682588295306_2_alg».proof.Proof.Gen.ReferenceIdeal.Run
import proofs.«425434_j35682588295306_2_alg».proof.Proof.Gen.ReferenceIdeal.Read
import proofs.«425434_j35682588295306_2_alg».proof.Proof.Blocks
import proofs.«425434_j35682588295306_2_alg».proof.Proof.RefSide
import proofs.«425434_j35682588295306_2_alg».proof.Proof.Range
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, with every category in range, the kernel's result array and the
    reference's are the same encoder of the arguments. -/
theorem algebraic : Cert.algebraic_KernelIdeal_ReferenceIdeal := by
  intro m ρ m' ρ' hpre hagree
  refine ⟨_, Cert.Encoder.KernelSide.run m ρ, ?_⟩
  refine (θ_run Cert.ReferenceIdeal.defs _ _).mono (fun _ h c => ⟨(h c).1.trans ?_, (h c).2⟩)
    (Cert.ReferenceIdeal.Value.run (F := Ideal) m' ρ')
  have hrange : ∀ b : Fin 4096,
      0 ≤ ((m ((c.tc : Thread Cert.KernelIdeal.nD Cert.KernelIdeal.τ).loc Cert.KernelIdeal.main_arg6) : Cert.KernelIdeal.S4096.Idx → BitVec 32) (ValueIdx.ix1 b)).toInt
      ∧ ((m ((c.tc : Thread Cert.KernelIdeal.nD Cert.KernelIdeal.τ).loc Cert.KernelIdeal.main_arg6) : Cert.KernelIdeal.S4096.Idx → BitVec 32) (ValueIdx.ix1 b)).toInt < 8 :=
    fun b => Cert.Encoder.tc_range _ _ _ _ _ _ _ _ _ _ _ _ _ (hpre c) b
  obtain ⟨e0, e1, e2, e3, e4, e5, e6, e7, e8, e9, e10, e11, e12⟩ := hagree c
  rw [Cert.ReferenceIdeal.Read.val_main_v29_eq, e0, e1, e2, e3, e4, e5, e6, e7, e8, e9, e10, e11, e12]
  exact Cert.Encoder.RefSide.ref_eq _ _ _ _ _ _ _ _ _ _ _ _ _ hrange

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
